-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S32000x2048 : Shape := ⟨2, ![32000, 2048]⟩
abbrev S4x32000x2048 : Shape := ⟨3, ![4, 32000, 2048]⟩
abbrev S512 : Shape := ⟨1, ![512]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x32000x2048 : S_.BroadcastsInDim S4x32000x2048 (![] : Fin 0 → Fin S4x32000x2048.rank)
  reducesTo_S4x32000x2048_S_d0_1_2 : S4x32000x2048.ReducesTo [0, 1, 2] S_

variable [Facts]

def fn {F : FTy → Type} [FloatOps F] (main_arg0 : FVec F S512x2048 .f32) (main_arg1 : FVec F S32000x2048 .f32) (main_arg2 : FVec F S4x32000x2048 .f32) (main_arg3 : IVec S512 32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S4x32000x2048 .f32 := Host.absf main_arg2
  let main_cst_2 : FVec F S_ .f32 := constant S_ .f32 0x7F800000#32
  let main_v10 : FVec F S4x32000x2048 .f32 := broadcastInDim S4x32000x2048 ![] bcast_S_S4x32000x2048 main_cst_2
  let main_v11 : IVec S4x32000x2048 1 := cmpf .olt main_v9 main_v10
  let main_c_3 : IVec S_ 1 := constantI S_ 1 1#1
  let main_v12 : IVec S_ 1 := (fun x v => Host.reduce IntOp.andi x v reducesTo_S4x32000x2048_S_d0_1_2 h_S_) main_v11 main_c_3
  let main_v13 : IVec S_ 1 := andi main_v8 main_v12
  main_v13
-- ==== Kernel.lean ====
abbrev S512x2048 : Shape := ⟨2, ![512, 2048]⟩
abbrev S32000x2048 : Shape := ⟨2, ![32000, 2048]⟩
abbrev S4x32000x2048 : Shape := ⟨3, ![4, 32000, 2048]⟩
abbrev S512 : Shape := ⟨1, ![512]⟩
abbrev S_ : Shape := ⟨0, ![]⟩
abbrev S512x1 : Shape := ⟨2, ![512, 1]⟩
abbrev S1x512x2048 : Shape := ⟨3, ![1, 512, 2048]⟩
abbrev S5x512x2048 : Shape := ⟨3, ![5, 512, 2048]⟩
abbrev S512x32000 : Shape := ⟨2, ![512, 32000]⟩
abbrev S640x2048 : Shape := ⟨2, ![640, 2048]⟩
abbrev S1x640x2048 : Shape := ⟨3, ![1, 640, 2048]⟩
abbrev S512x640 : Shape := ⟨2, ![512, 640]⟩

abbrev nBuf : Space → Nat
  | .hbm => 44
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S32000x2048, .f32⟩
  | .hbm, ⟨2, _⟩ => ⟨S4x32000x2048, .f32⟩
  | .hbm, ⟨3, _⟩ => ⟨S512, .i32⟩
  | .hbm, ⟨4, _⟩ => ⟨S512x2048, .bf16⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S512x1, .i1⟩
  | .hbm, ⟨9, _⟩ => ⟨S_, .bf16⟩
  | .hbm, ⟨10, _⟩ => ⟨S512x2048, .i1⟩
  | .hbm, ⟨11, _⟩ => ⟨S512x2048, .bf16⟩
  | .hbm, ⟨12, _⟩ => ⟨S512x2048, .bf16⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512x1, .i1⟩
  | .hbm, ⟨17, _⟩ => ⟨S_, .bf16⟩
  | .hbm, ⟨18, _⟩ => ⟨S512x2048, .i1⟩
  | .hbm, ⟨19, _⟩ => ⟨S512x2048, .bf16⟩
  | .hbm, ⟨20, _⟩ => ⟨S512x2048, .bf16⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512x1, .i1⟩
  | .hbm, ⟨25, _⟩ => ⟨S_, .bf16⟩
  | .hbm, ⟨26, _⟩ => ⟨S512x2048, .i1⟩
  | .hbm, ⟨27, _⟩ => ⟨S512x2048, .bf16⟩
  | .hbm, ⟨28, _⟩ => ⟨S512x2048, .bf16⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512x1, .i1⟩
  | .hbm, ⟨33, _⟩ => ⟨S_, .bf16⟩
  | .hbm, ⟨34, _⟩ => ⟨S512x2048, .i1⟩
  | .hbm, ⟨35, _⟩ => ⟨S512x2048, .bf16⟩
  | .hbm, ⟨36, _⟩ => ⟨S512x2048, .bf16⟩
  | .hbm, ⟨37, _⟩ => ⟨S1x512x2048, .bf16⟩
  | .hbm, ⟨38, _⟩ => ⟨S1x512x2048, .bf16⟩
  | .hbm, ⟨39, _⟩ => ⟨S1x512x2048, .bf16⟩
  | .hbm, ⟨40, _⟩ => ⟨S1x512x2048, .bf16⟩
  | .hbm, ⟨41, _⟩ => ⟨S1x512x2048, .bf16⟩
  | .hbm, ⟨42, _⟩ => ⟨S5x512x2048, .bf16⟩
  | .hbm, ⟨43, _⟩ => ⟨S512x32000, .f32⟩
  | .local _ .vmem, ⟨0, _⟩ => ⟨S1x512x2048, .bf16⟩
  | .local _ .vmem, ⟨1, _⟩ => ⟨S1x512x2048, .bf16⟩
  | .local _ .vmem, ⟨2, _⟩ => ⟨S640x2048, .f32⟩
  | .local _ .vmem, ⟨3, _⟩ => ⟨S640x2048, .f32⟩
  | .local _ .vmem, ⟨4, _⟩ => ⟨S1x640x2048, .f32⟩
  | .local _ .vmem, ⟨5, _⟩ => ⟨S1x640x2048, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call2_v0 : Ref sig .tc := ⟨.hbm, 26, rfl⟩
abbrev main_call2_v1 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_call3_v0 : Ref sig .tc := ⟨.hbm, 34, rfl⟩
abbrev main_call3_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![50, 5], ![false, false]⟩

def k0_cond4 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  bcast_S_S512 : S_.BroadcastsInDim S512 (![] : Fin 0 → Fin S512.rank)
  bcast_S512_S512x1_0 : S512.BroadcastsInDim S512x1 (![0] : Fin 1 → Fin S512x1.rank)
  bcast_S512x1_S512x2048_0_1 : S512x1.BroadcastsInDim S512x2048 (![0, 1] : Fin 2 → Fin S512x2048.rank)
  bcast_S_S512x2048 : S_.BroadcastsInDim S512x2048 (![] : Fin 0 → Fin S512x2048.rank)
  bcast_S512x2048_S1x512x2048_1_2 : S512x2048.BroadcastsInDim S1x512x2048 (![1, 2] : Fin 2 → Fin S1x512x2048.rank)
  concatenates_S1x512x2048_S1x512x2048_S1x512x2048_S1x512x2048_S1x512x2048_S5x512x2048_d0 : Shape.Concatenates [S1x512x2048, S1x512x2048, S1x512x2048, S1x512x2048, S1x512x2048] S5x512x2048 0
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S640x2048_S640x2048_0_0 : ∀ a, (![0, 0] : Fin 2 → Nat) a + S640x2048.size a ≤ S640x2048.size a
  h_S640x2048 : 0 < S640x2048.numel
  inb_S1x640x2048_S1x640x2048_0_0_0 : ∀ a, (![0, 0, 0] : Fin 3 → Nat) a + S1x640x2048.size a ≤ S1x640x2048.size a
  h_S1x640x2048 : 0 < S1x640x2048.numel
  shapeCasts_S1x640x2048_S640x2048 : S1x640x2048.ShapeCasts S640x2048
  dot_S512x2048_S640x2048_S512x640_1_1_0_0_n_n_wf : DotDims.WF S512x2048 S640x2048 S512x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S5x512x2048.size a
  hwx0_0 : ∀ i : grid0.Coords, EltTy.bits .bf16 = 32 ∨ (Rect.block (s := S5x512x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .f32 = 32 ∨ (Rect.block (s := S32000x2048) S640x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x640x2048.size a ≤ S4x32000x2048.size a
  hwx0_2 : ∀ i : grid0.Coords, EltTy.bits .f32 = 32 ∨ (Rect.block (s := S4x32000x2048) S1x640x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S512x32000.size a
  hwx0_3 : ∀ i : grid0.Coords, EltTy.bits .f32 = 32 ∨ (Rect.block (s := S512x32000) S512x640.size (cc0_transform_3 i) (hinb0_3 i)).WholeWords (EltTy.packing .f32)

variable [Facts₀]

def dot_S512x2048_S640x2048_S512x640_1_1_0_0_n_n : DotDims S512x2048 S640x2048 S512x640 where
  lhsContracting := [1]
  rhsContracting := [1]
  lhsNonContracting := [0]
  rhsNonContracting := [0]
  lhsBatch := []
  rhsBatch := []
  wf := dot_S512x2048_S640x2048_S512x640_1_1_0_0_n_n_wf

abbrev win0_0 : Pipeline.Window sig grid0 :=
  Pipeline.Window.ofSpec (Memref.whole main_v22) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x640x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S512x2048 : Shape := ⟨2, ![512, 2048]⟩
abbrev S32000x2048 : Shape := ⟨2, ![32000, 2048]⟩
abbrev S4x32000x2048 : Shape := ⟨3, ![4, 32000, 2048]⟩
abbrev S512 : Shape := ⟨1, ![512]⟩
abbrev S2048x32000 : Shape := ⟨2, ![2048, 32000]⟩
abbrev S512x32000 : Shape := ⟨2, ![512, 32000]⟩
abbrev S_ : Shape := ⟨0, ![]⟩
abbrev S512x1 : Shape := ⟨2, ![512, 1]⟩
abbrev S1x32000x2048 : Shape := ⟨3, ![1, 32000, 2048]⟩

abbrev nBuf : Space → Nat
  | .hbm => 62
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S32000x2048, .f32⟩
  | .hbm, ⟨2, _⟩ => ⟨S4x32000x2048, .f32⟩
  | .hbm, ⟨3, _⟩ => ⟨S512, .i32⟩
  | .hbm, ⟨4, _⟩ => ⟨S2048x32000, .f32⟩
  | .hbm, ⟨5, _⟩ => ⟨S512x32000, .f32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S512x1, .i1⟩
  | .hbm, ⟨10, _⟩ => ⟨S_, .f32⟩
  | .hbm, ⟨11, _⟩ => ⟨S_, .f32⟩
  | .hbm, ⟨12, _⟩ => ⟨S512x2048, .i1⟩
  | .hbm, ⟨13, _⟩ => ⟨S512x2048, .f32⟩
  | .hbm, ⟨14, _⟩ => ⟨S512x2048, .f32⟩
  | .hbm, ⟨15, _⟩ => ⟨S1x32000x2048, .f32⟩
  | .hbm, ⟨16, _⟩ => ⟨S32000x2048, .f32⟩
  | .hbm, ⟨17, _⟩ => ⟨S2048x32000, .f32⟩
  | .hbm, ⟨18, _⟩ => ⟨S512x32000, .f32⟩
  | .hbm, ⟨19, _⟩ => ⟨S512x32000, .f32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512x1, .i1⟩
  | .hbm, ⟨24, _⟩ => ⟨S_, .f32⟩
  | .hbm, ⟨25, _⟩ => ⟨S_, .f32⟩
  | .hbm, ⟨26, _⟩ => ⟨S512x2048, .i1⟩
  | .hbm, ⟨27, _⟩ => ⟨S512x2048, .f32⟩
  | .hbm, ⟨28, _⟩ => ⟨S512x2048, .f32⟩
  | .hbm, ⟨29, _⟩ => ⟨S1x32000x2048, .f32⟩
  | .hbm, ⟨30, _⟩ => ⟨S32000x2048, .f32⟩
  | .hbm, ⟨31, _⟩ => ⟨S2048x32000, .f32⟩
  | .hbm, ⟨32, _⟩ => ⟨S512x32000, .f32⟩
  | .hbm, ⟨33, _⟩ => ⟨S512x32000, .f32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512x1, .i1⟩
  | .hbm, ⟨38, _⟩ => ⟨S_, .f32⟩
  | .hbm, ⟨39, _⟩ => ⟨S_, .f32⟩
  | .hbm, ⟨40, _⟩ => ⟨S512x2048, .i1⟩
  | .hbm, ⟨41, _⟩ => ⟨S512x2048, .f32⟩
  | .hbm, ⟨42, _⟩ => ⟨S512x2048, .f32⟩
  | .hbm, ⟨43, _⟩ => ⟨S1x32000x2048, .f32⟩
  | .hbm, ⟨44, _⟩ => ⟨S32000x2048, .f32⟩
  | .hbm, ⟨45, _⟩ => ⟨S2048x32000, .f32⟩
  | .hbm, ⟨46, _⟩ => ⟨S512x32000, .f32⟩
  | .hbm, ⟨47, _⟩ => ⟨S512x32000, .f32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S512x1, .i1⟩
  | .hbm, ⟨52, _⟩ => ⟨S_, .f32⟩
  | .hbm, ⟨53, _⟩ => ⟨S_, .f32⟩
  | .hbm, ⟨54, _⟩ => ⟨S512x2048, .i1⟩
  | .hbm, ⟨55, _⟩ => ⟨S512x2048, .f32⟩
  | .hbm, ⟨56, _⟩ => ⟨S512x2048, .f32⟩
  | .hbm, ⟨57, _⟩ => ⟨S1x32000x2048, .f32⟩
  | .hbm, ⟨58, _⟩ => ⟨S32000x2048, .f32⟩
  | .hbm, ⟨59, _⟩ => ⟨S2048x32000, .f32⟩
  | .hbm, ⟨60, _⟩ => ⟨S512x32000, .f32⟩
  | .hbm, ⟨61, _⟩ => ⟨S512x32000, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  transposes_S32000x2048_S2048x32000_1_0 : S32000x2048.Transposes [1, 0] S2048x32000
  bcast_S_S512 : S_.BroadcastsInDim S512 (![] : Fin 0 → Fin S512.rank)
  bcast_S512_S512x1_0 : S512.BroadcastsInDim S512x1 (![0] : Fin 1 → Fin S512x1.rank)
  bcast_S512x1_S512x2048_0_1 : S512x1.BroadcastsInDim S512x2048 (![0, 1] : Fin 2 → Fin S512x2048.rank)
  bcast_S_S512x2048 : S_.BroadcastsInDim S512x2048 (![] : Fin 0 → Fin S512x2048.rank)
  slices_S4x32000x2048_S1x32000x2048_0_0_0 : S4x32000x2048.Slices ![0, 0, 0] S1x32000x2048
  shapeCasts_S1x32000x2048_S32000x2048 : S1x32000x2048.ShapeCasts S32000x2048
  slices_S4x32000x2048_S1x32000x2048_1_0_0 : S4x32000x2048.Slices ![1, 0, 0] S1x32000x2048
  slices_S4x32000x2048_S1x32000x2048_2_0_0 : S4x32000x2048.Slices ![2, 0, 0] S1x32000x2048
  slices_S4x32000x2048_S1x32000x2048_3_0_0 : S4x32000x2048.Slices ![3, 0, 0] S1x32000x2048
  dot_S512x2048_S2048x32000_S512x32000_1_0_0_1_n_n_wf : DotDims.WF S512x2048 S2048x32000 S512x32000 [1] [0] [0] [1] [] []

variable [Facts₀]

def dot_S512x2048_S2048x32000_S512x32000_1_0_0_1_n_n : DotDims S512x2048 S2048x32000 S512x32000 where
  lhsContracting := [1]
  rhsContracting := [0]
  lhsNonContracting := [0]
  rhsNonContracting := [1]
  lhsBatch := []
  rhsBatch := []
  wf := dot_S512x2048_S2048x32000_S512x32000_1_0_0_1_n_n_wf

class Facts : Prop extends Facts₀ where

variable [Facts]
-- ==== Proof.K.Kit.lean ====
/- The launch side of the kernel's frame, stated once for any float instance: what every TensorCore buffer holds when
   the one pallas_call is entered (the host operations before it, folded over the launch memory), that no host
   operation writes an argument array, each window's block at a grid point, the three conditions the body branches on
   in closed form over the grid (the reduction step d = t mod 5 is zero / positive / the last), where the output
   window is idle, and the region invariant with the accumulator scratch as an owned buffer. -/
import proofs.«157746_j15977278341385_1_alg».proof.Proof.Gen.Kernel.Launch
import proofs.«157746_j15977278341385_1_alg».proof.Proof.Gen.Kernel.Skeleton
import proofs.«157746_j15977278341385_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the nine stretches of host operations (the cast of
    the activations, the four masked copies, the stack of the five slots). -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main up to the region: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.nary_writes, StableHlo.TRef.unary, StableHlo.TRef.ternary, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.nary_writes, StableHlo.TRef.unary, StableHlo.TRef.ternary, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.nary_writes, StableHlo.TRef.unary, StableHlo.TRef.ternary, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.nary_writes, StableHlo.TRef.unary, StableHlo.TRef.ternary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: unfetched, its
    block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: unfetched, its
    block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: unfetched, its
    block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim from a frame run: the two staged arguments (the embedding, the stacked deltas) are input windows'
    arrays, which the pipeline leaves as found; the activations and the adapter indices bypass the region; and no
    host operation wrote any of the four. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 rfl (by decide))).trans (V_main_arg0 m c),
     ((h c).1 1).trans (((dats 0 c).arrAt_in 1 rfl _).trans ((hA c 1).trans (V_main_arg1 m c))),
     ((h c).1 2).trans (((dats 0 c).arrAt_in 2 rfl _).trans ((hA c 2).trans (V_main_arg2 m c))),
     ((h c).2 main_arg3 (Pipeline.mem_restRefs_of main_arg3 rfl (by decide))).trans (V_main_arg3 m c)⟩) h

/-! ## The body's branch conditions -/

/-- The reduction step is the first (`d = 0`): the condition of the body's first two `scf.if`s. -/
abbrev condZ (i : grid0.Coords) : Prop := (Scalar.cmpi .ne (Scalar.extui (Scalar.cmpi .eq (BitVec.ofNat 32 (i 1).val) 0#32)) 0#32) = 1#1
theorem hcondZ : ∀ t : Fin cfg0.N, condZ (grid0.coords t) ↔ t.val % 5 = 0 :=
  (by decide +kernel : ∀ t : Fin grid0.N, condZ (grid0.coords t) ↔ t.val % 5 = 0)

/-- The reduction step is a later one (`d > 0`): the condition of the third `scf.if`. -/
abbrev condP (i : grid0.Coords) : Prop := (Scalar.cmpi .ne (Scalar.extui (Scalar.cmpi .sgt (BitVec.ofNat 32 (i 1).val) 0#32)) 0#32) = 1#1
theorem hcondP : ∀ t : Fin cfg0.N, condP (grid0.coords t) ↔ ¬ t.val % 5 = 0 :=
  (by decide +kernel : ∀ t : Fin grid0.N, condP (grid0.coords t) ↔ ¬ t.val % 5 = 0)

/-- The reduction step is the last (`d = 4`): the condition of the fourth `scf.if`. -/
abbrev condL (i : grid0.Coords) : Prop := k0_cond4 i = 1#1
theorem hcondL : ∀ t : Fin cfg0.N, condL (grid0.coords t) ↔ t.val % 5 = 4 :=
  (by decide +kernel : ∀ t : Fin grid0.N, condL (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last reduction step the output window is idle (the body stores nothing into it) and not written back. -/
theorem idleAt0_3 : ∀ t : Fin cfg0.N, ¬condL (grid0.coords t) → cfg0.idle 3 (grid0.coords t) = true := by decide +kernel
theorem noFlush0_3 : ∀ t : Fin cfg0.N, ¬condL (grid0.coords t) → (cfg0.win 3).flush t = false := by decide +kernel
/-- At the last reduction step it is live. -/
theorem liveAt0_3 : ∀ t : Fin cfg0.N, condL (grid0.coords t) → cfg0.idle 3 (grid0.coords t) = false := by decide +kernel

/-! ## The staging and scratch memrefs -/

abbrev VO0_3 : View sig .tc .vmem S512x640 .f32 := (Memref.whole cc0_stg3_0 : Memref sig .tc .vmem S512x640 .f32).view
abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x640 .f32 := win0_3.stage (cfg0.slots t 3)
abbrev hs0_3 (t : Fin cfg0.N) : (ms0_3 t).IsWhole := hstage0_3 ((cfg0.slots t 3).cast nbuf0_3)
/-- The accumulator scratch: a whole scoped buffer of the kernel's own, carried from one grid point to the next. -/
abbrev scM0_0 : Memref sig .tc .vmem S512x640 .f32 := Memref.whole cc0_scratch0
abbrev VS0_0 : View sig .tc .vmem S512x640 .f32 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.K.RunA.lean ====
/- The kernel body at a first reduction step (d = 0): it zeroes the accumulator scratch, then stores into it the sum of what it now reads there and the product of the activations slot with the embedding tile; the weights tile and the output buffer are not touched. Stated on any whole staging memrefs, with the pieces the scratch ends with as the witness the run finds. -/
import proofs.«157746_j15977278341385_1_alg».proof.Proof.K.Kit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A: the first two conditionals taken, the last two not. -/
noncomputable def kernelRunA (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : condZ i) (hp : ¬condP i) (hl : ¬condL i)
    (x0 : Vec F S1x512x2048 .bf16) (x1 : Vec F S640x2048 .f32) (x2 : Vec F S1x640x2048 .f32) :
    { LS0 : List (View.Piece (Elt F) S512x640 .f32) //
      ∀ (xi3 : Vec F S512x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hz | exact hp | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.K.RunB.lean ====
/- The kernel body at a middle reduction step (d = 1, 2, 3): it stores into the accumulator scratch the sum of what the step before left there and the product of the activations slot with the weights tile; the embedding tile and the output buffer are not touched. -/
import proofs.«157746_j15977278341385_1_alg».proof.Proof.K.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B: only the third conditional taken. -/
noncomputable def kernelRunB (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : ¬condL i)
    (x0 : Vec F S1x512x2048 .bf16) (x1 : Vec F S640x2048 .f32) (x2 : Vec F S1x640x2048 .f32) (xs0 : Vec F S512x640 .f32) :
    { LS0 : List (View.Piece (Elt F) S512x640 .f32) //
      ∀ (xi3 : Vec F S512x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hz | exact hp | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.K.RunC.lean ====
/- The kernel body at the last reduction step (d = 4): as at a middle step, and then the accumulator scratch is copied into the output buffer. The output buffer may hold anything on entry; both it and the scratch end with the pieces the run finds. -/
import proofs.«157746_j15977278341385_1_alg».proof.Proof.K.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C: the third and the fourth conditionals taken. -/
noncomputable def kernelRunC (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) :
    Σ' (L3 : List (View.Piece (Elt F) S512x640 .f32)), { LS0 : List (View.Piece (Elt F) S512x640 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hz | exact hp | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frame

end
-- ==== Proof.K.Frame.lean ====
/- The kernel's frame certificate, stated once for any float instance. Over the 250 grid points (50 vocabulary
   tiles, each with five reduction steps d = t mod 5) the accumulator scratch after point t holds: at d = 0 what the
   first-step body leaves (the embedding product over a zeroed scratch), at d > 0 what the later-step body leaves over
   the contents after point t - 1; the output window's buffer is stored only at d = 4, with a copy of the scratch, and
   is idle before. With these as the pipeline's proof data, the scratch contents carried in the region invariant, the
   body obligation holds at every point case by case, and the library's tracked frame run gives the run of @main:
   every window's array at what the pipeline computes from the data, every other buffer as the region found it. -/
import proofs.«157746_j15977278341385_1_alg».proof.Proof.K.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's one store into the accumulator scratch covers it. -/
theorem scover_A (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : condZ i) (hp : ¬condP i) (hl : ¬condL i)
    (x0 : Vec F S1x512x2048 .bf16) (x1 : Vec F S640x2048 .f32) (x2 : Vec F S1x640x2048 .f32) (y : S512x640.Idx) :
    ∃ pc ∈ (kernelRunA c i arg2 harg2 arg3 harg3 arg4 harg4 arg5 harg5 arg6 harg6 hz hp hl x0 x1 x2).1, y ∈ pc.1.set :=
  View.cover_of_tiledL (kernelRunA c i arg2 harg2 arg3 harg3 arg4 harg4 arg5 harg5 arg6 harg6 hz hp hl x0 x1 x2).1 S512x640.size (by sl_kernel_rfl) y

/-- What case A leaves in the accumulator scratch: its pieces read back. -/
def sout_A (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : condZ i) (hp : ¬condP i) (hl : ¬condL i)
    (x0 : Vec F S1x512x2048 .bf16) (x1 : Vec F S640x2048 .f32) (x2 : Vec F S1x640x2048 .f32) : Vec F S512x640 .f32 :=
  VS0_0.read (Elt F) (VS0_0.writes (Elt F) VS0_0.junk (kernelRunA c i arg2 harg2 arg3 harg3 arg4 harg4 arg5 harg5 arg6 harg6 hz hp hl x0 x1 x2).1)

/-- Case B's one store into the accumulator scratch covers it. -/
theorem scover_B (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : ¬condL i)
    (x0 : Vec F S1x512x2048 .bf16) (x1 : Vec F S640x2048 .f32) (x2 : Vec F S1x640x2048 .f32) (xs0 : Vec F S512x640 .f32) (y : S512x640.Idx) :
    ∃ pc ∈ (kernelRunB c i arg2 harg2 arg3 harg3 arg4 harg4 arg5 harg5 arg6 harg6 hz hp hl x0 x1 x2 xs0).1, y ∈ pc.1.set :=
  View.cover_of_tiledL (kernelRunB c i arg2 harg2 arg3 harg3 arg4 harg4 arg5 harg5 arg6 harg6 hz hp hl x0 x1 x2 xs0).1 S512x640.size (by sl_kernel_rfl) y

/-- What case B leaves in the accumulator scratch: its pieces read back. -/
def sout_B (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : ¬condL i)
    (x0 : Vec F S1x512x2048 .bf16) (x1 : Vec F S640x2048 .f32) (x2 : Vec F S1x640x2048 .f32) (xs0 : Vec F S512x640 .f32) : Vec F S512x640 .f32 :=
  VS0_0.read (Elt F) (VS0_0.writes (Elt F) VS0_0.junk (kernelRunB c i arg2 harg2 arg3 harg3 arg4 harg4 arg5 harg5 arg6 harg6 hz hp hl x0 x1 x2 xs0).1)

/-- Case C's one store into the accumulator scratch covers it. -/
theorem scover_C (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) (y : S512x640.Idx) :
    ∃ pc ∈ (kernelRunC c i arg2 harg2 arg3 harg3 arg4 harg4 arg5 harg5 arg6 harg6 hz hp hl x0 x1 x2 xs0).2.1, y ∈ pc.1.set :=
  View.cover_of_tiledL (kernelRunC c i arg2 harg2 arg3 harg3 arg4 harg4 arg5 harg5 arg6 harg6 hz hp hl x0 x1 x2 xs0).2.1 S512x640.size (by sl_kernel_rfl) y

/-- What case C leaves in the accumulator scratch: its pieces read back. -/
def sout_C (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) : Vec F S512x640 .f32 :=
  VS0_0.read (Elt F) (VS0_0.writes (Elt F) VS0_0.junk (kernelRunC c i arg2 harg2 arg3 harg3 arg4 harg4 arg5 harg5 arg6 harg6 hz hp hl x0 x1 x2 xs0).2.1)

/-- Case C's one store into the output buffer covers it. -/
theorem cover_C (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) (y : S512x640.Idx) :
    ∃ pc ∈ (kernelRunC c i arg2 harg2 arg3 harg3 arg4 harg4 arg5 harg5 arg6 harg6 hz hp hl x0 x1 x2 xs0).1, y ∈ pc.1.set :=
  View.cover_of_tiledL (kernelRunC c i arg2 harg2 arg3 harg3 arg4 harg4 arg5 harg5 arg6 harg6 hz hp hl x0 x1 x2 xs0).1 S512x640.size (by sl_kernel_rfl) y

/-- What case C leaves in the output window's staging buffer: its pieces read back. -/
def out_C (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) : Vec F S512x640 .f32 :=
  VO0_3.read (Elt F) (VO0_3.writes (Elt F) VO0_3.junk (kernelRunC c i arg2 harg2 arg3 harg3 arg4 harg4 arg5 harg5 arg6 harg6 hz hp hl x0 x1 x2 xs0).1)

/-! ## What the output buffer and the scratch hold after each point -/

/-- The accumulation: after the body at position `n`, the output window's staging buffer (first component; it is stored
    only at a last reduction step, and what is written here for the other points is a placeholder nothing consults: the
    window is idle there) and the accumulator scratch (second component). -/
def outsAt (c : Dev nD) : (n : ℕ) → n < cfg0.N → Vec F S512x640 .f32 × Vec F S512x640 .f32
  | 0, hn => (sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcondZ ⟨0, hn⟩).mpr (Nat.zero_mod _)) (fun h => (hcondP ⟨0, hn⟩).mp h (Nat.zero_mod _)) (fun h => (fun h' => by (try dsimp only at h'); omega) ((hcondL ⟨0, hn⟩).mp h)) (iblk m c 0 ⟨0, hn⟩) (iblk m c 1 ⟨0, hn⟩) (iblk m c 2 ⟨0, hn⟩), sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcondZ ⟨0, hn⟩).mpr (Nat.zero_mod _)) (fun h => (hcondP ⟨0, hn⟩).mp h (Nat.zero_mod _)) (fun h => (fun h' => by (try dsimp only at h'); omega) ((hcondL ⟨0, hn⟩).mp h)) (iblk m c 0 ⟨0, hn⟩) (iblk m c 1 ⟨0, hn⟩) (iblk m c 2 ⟨0, hn⟩))
  | n + 1, hn =>
    if h0 : (n + 1) % 5 = 0 then
      (sout_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcondZ ⟨n + 1, hn⟩).mpr h0) (fun h => (hcondP ⟨n + 1, hn⟩).mp h h0) (fun h => (fun h' => by (try dsimp only at h'); omega) ((hcondL ⟨n + 1, hn⟩).mp h)) (iblk m c 0 ⟨n + 1, hn⟩) (iblk m c 1 ⟨n + 1, hn⟩) (iblk m c 2 ⟨n + 1, hn⟩), sout_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcondZ ⟨n + 1, hn⟩).mpr h0) (fun h => (hcondP ⟨n + 1, hn⟩).mp h h0) (fun h => (fun h' => by (try dsimp only at h'); omega) ((hcondL ⟨n + 1, hn⟩).mp h)) (iblk m c 0 ⟨n + 1, hn⟩) (iblk m c 1 ⟨n + 1, hn⟩) (iblk m c 2 ⟨n + 1, hn⟩))
    else
      if h4 : (n + 1) % 5 = 4 then
        (out_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcondZ ⟨n + 1, hn⟩).mp h)) ((hcondP ⟨n + 1, hn⟩).mpr h0) ((hcondL ⟨n + 1, hn⟩).mpr h4) (iblk m c 0 ⟨n + 1, hn⟩) (iblk m c 1 ⟨n + 1, hn⟩) (iblk m c 2 ⟨n + 1, hn⟩) (outsAt c n (Nat.lt_of_succ_lt hn)).2, sout_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcondZ ⟨n + 1, hn⟩).mp h)) ((hcondP ⟨n + 1, hn⟩).mpr h0) ((hcondL ⟨n + 1, hn⟩).mpr h4) (iblk m c 0 ⟨n + 1, hn⟩) (iblk m c 1 ⟨n + 1, hn⟩) (iblk m c 2 ⟨n + 1, hn⟩) (outsAt c n (Nat.lt_of_succ_lt hn)).2)
      else
        (sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcondZ ⟨n + 1, hn⟩).mp h)) ((hcondP ⟨n + 1, hn⟩).mpr h0) (fun h => h4 ((hcondL ⟨n + 1, hn⟩).mp h)) (iblk m c 0 ⟨n + 1, hn⟩) (iblk m c 1 ⟨n + 1, hn⟩) (iblk m c 2 ⟨n + 1, hn⟩) (outsAt c n (Nat.lt_of_succ_lt hn)).2, sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcondZ ⟨n + 1, hn⟩).mp h)) ((hcondP ⟨n + 1, hn⟩).mpr h0) (fun h => h4 ((hcondL ⟨n + 1, hn⟩).mp h)) (iblk m c 0 ⟨n + 1, hn⟩) (iblk m c 1 ⟨n + 1, hn⟩) (iblk m c 2 ⟨n + 1, hn⟩) (outsAt c n (Nat.lt_of_succ_lt hn)).2)

/-- At a first reduction step. -/
theorem outsAt_A (c : Dev nD) (t : Fin cfg0.N) (h0 : t.val % 5 = 0) :
    outsAt m c t.val t.isLt = (sout_A c (grid0.coords t) (ms0_0 t) (hs0_0 t) (ms0_1 t) (hs0_1 t) (ms0_2 t) (hs0_2 t) (ms0_3 t) (hs0_3 t) scM0_0 (Memref.isWhole_whole _) ((hcondZ t).mpr h0) (fun h => (hcondP t).mp h h0) (fun h => (fun h' => by (try dsimp only at h'); omega) ((hcondL t).mp h)) (iblk m c 0 t) (iblk m c 1 t) (iblk m c 2 t), sout_A c (grid0.coords t) (ms0_0 t) (hs0_0 t) (ms0_1 t) (hs0_1 t) (ms0_2 t) (hs0_2 t) (ms0_3 t) (hs0_3 t) scM0_0 (Memref.isWhole_whole _) ((hcondZ t).mpr h0) (fun h => (hcondP t).mp h h0) (fun h => (fun h' => by (try dsimp only at h'); omega) ((hcondL t).mp h)) (iblk m c 0 t) (iblk m c 1 t) (iblk m c 2 t)) := by
  obtain ⟨n, hn⟩ := t
  cases n with
  | zero => exact rfl
  | succ n => exact (dif_pos h0).trans rfl

/-- At a middle reduction step: over what the point before left in the scratch. -/
theorem outsAt_B (c : Dev nD) (t : Fin cfg0.N) (h0 : ¬t.val % 5 = 0) (h4 : ¬t.val % 5 = 4) :
    outsAt m c t.val t.isLt = (sout_B c (grid0.coords t) (ms0_0 t) (hs0_0 t) (ms0_1 t) (hs0_1 t) (ms0_2 t) (hs0_2 t) (ms0_3 t) (hs0_3 t) scM0_0 (Memref.isWhole_whole _) (fun h => h0 ((hcondZ t).mp h)) ((hcondP t).mpr h0) (fun h => h4 ((hcondL t).mp h)) (iblk m c 0 t) (iblk m c 1 t) (iblk m c 2 t) (outsAt m c (t.val - 1) (Nat.lt_of_le_of_lt (Nat.sub_le _ _) t.isLt)).2, sout_B c (grid0.coords t) (ms0_0 t) (hs0_0 t) (ms0_1 t) (hs0_1 t) (ms0_2 t) (hs0_2 t) (ms0_3 t) (hs0_3 t) scM0_0 (Memref.isWhole_whole _) (fun h => h0 ((hcondZ t).mp h)) ((hcondP t).mpr h0) (fun h => h4 ((hcondL t).mp h)) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h4).trans rfl)

/-- At a last reduction step: over what the point before left in the scratch. -/
theorem outsAt_C (c : Dev nD) (t : Fin cfg0.N) (h0 : ¬t.val % 5 = 0) (h4 : t.val % 5 = 4) :
    outsAt m c t.val t.isLt = (out_C c (grid0.coords t) (ms0_0 t) (hs0_0 t) (ms0_1 t) (hs0_1 t) (ms0_2 t) (hs0_2 t) (ms0_3 t) (hs0_3 t) scM0_0 (Memref.isWhole_whole _) (fun h => h0 ((hcondZ t).mp h)) ((hcondP t).mpr h0) ((hcondL t).mpr h4) (iblk m c 0 t) (iblk m c 1 t) (iblk m c 2 t) (outsAt m c (t.val - 1) (Nat.lt_of_le_of_lt (Nat.sub_le _ _) t.isLt)).2, sout_C c (grid0.coords t) (ms0_0 t) (hs0_0 t) (ms0_1 t) (hs0_1 t) (ms0_2 t) (hs0_2 t) (ms0_3 t) (hs0_3 t) scM0_0 (Memref.isWhole_whole _) (fun h => h0 ((hcondZ t).mp h)) ((hcondP t).mpr h0) ((hcondL t).mpr h4) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h4).trans rfl)

/-- The region invariant before position `n`: before the first point the class's (the scratch at anything); afterwards
    the scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2)) ∗ (∃ r, prngReg c r)) := by
  cases n with
  | zero => exact absurd rfl hz
  | succ n => rfl

/-! ## The pipeline's proof data -/

/-- The arrays as the region finds them; after the body at point `t` each input's buffer at its block and the output's
    at `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The three inputs are live at every point: the body leaves each buffer at its block. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the reduction step says which case the point is in;
    the invariant hands the body the scratch at what the point before left (at anything before the first point) and
    takes it back at this point's contents; the output buffer is handed back untouched before the last step and
    stored whole at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 250 := lt_of_lt_of_eq t.isLt (show cfg0.N = 250 from N_0)
  by_cases h0 : t.val % 5 = 0
  · have hl : ¬condL (grid0.coords t) := fun h => by have := (hcondL t).mp h; omega
    rw [Dat.leavesExact_idle (dats m 0 c) 3 t (idleAt0_3 t hl) (noFlush0_3 t hl)]
    rw [outsAt_A m c t h0]
    unfold sout_A; (try dsimp only)
    by_cases hzero : t.val = 0
    · rw [PhiS_castSucc m c t, PhiS_zero m c _ _ hzero, PhiA0_eq]
      iintro ⟨⟨HS0, Hg⟩, Ho, ⟨%d0, H0⟩, ⟨%d1, H1⟩, ⟨%d2, H2⟩, ⟨%d3, H3⟩⟩
      iapply ((kernelRunA c (grid0.coords t) _ _ _ _ _ _ _ _ _ _ ((hcondZ t).mpr h0) (fun h => (hcondP t).mp h h0) (fun h => (fun h' => by (try dsimp only at h'); omega) ((hcondL t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
    · rw [PhiS_castSucc m c t, PhiS_pos m c _ _ hzero]
      iintro ⟨⟨HS0, Hg⟩, Ho, ⟨%d0, H0⟩, ⟨%d1, H1⟩, ⟨%d2, H2⟩, ⟨%d3, H3⟩⟩
      iapply ((kernelRunA c (grid0.coords t) _ _ _ _ _ _ _ _ _ _ ((hcondZ t).mpr h0) (fun h => (hcondP t).mp h h0) (fun h => (fun h' => by (try dsimp only at h'); omega) ((hcondL t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
  · have hzero : t.val ≠ 0 := fun e => h0 (by rw [e])
    by_cases h4 : t.val % 5 = 4
    · rw [show (dats m 0 c).leavesExact 3 t = owns (c : Thread nD τ) (ms0_3 t) fullShare ((dats m 0 c).after 3 t) from by
        unfold Dat.leavesExact; rw [liveAt0_3 t ((hcondL t).mpr h4)], after0_3]
      rw [outsAt_C m c t h0 h4]
      unfold out_C sout_C; (try dsimp only)
      rw [PhiS_castSucc m c t, PhiS_pos m c _ _ hzero]
      iintro ⟨⟨HS0, Hg⟩, Ho, ⟨%d0, H0⟩, ⟨%d1, H1⟩, ⟨%d2, H2⟩, ⟨%d3, H3⟩⟩
      iapply ((kernelRunC c (grid0.coords t) _ _ _ _ _ _ _ _ _ _ (fun h => h0 ((hcondZ t).mp h)) ((hcondP t).mpr h0) ((hcondL t).mpr h4) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover_C c _ _ _ _ _ _ _ _ _ _ _ _ _ _ _ _ _ _ )
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _ _ )
    · have hl : ¬condL (grid0.coords t) := fun h => h4 ((hcondL t).mp h)
      rw [Dat.leavesExact_idle (dats m 0 c) 3 t (idleAt0_3 t hl) (noFlush0_3 t hl)]
      rw [outsAt_B m c t h0 h4]
      unfold sout_B; (try dsimp only)
      rw [PhiS_castSucc m c t, PhiS_pos m c _ _ hzero]
      iintro ⟨⟨HS0, Hg⟩, Ho, ⟨%d0, H0⟩, ⟨%d1, H1⟩, ⟨%d2, H2⟩, ⟨%d3, H3⟩⟩
      iapply ((kernelRunB c (grid0.coords t) _ _ _ _ _ _ _ _ _ _ (fun h => h0 ((hcondZ t).mp h)) ((hcondP t).mpr h0) (fun h => h4 ((hcondL t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover_B c _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 250 := N_0; omega)

/-! ## The run and the frame -/

set_option backward.isDefEq.respectTransparency.types false in
/-- Every weakly fair execution of @main terminates, nothing faulting, and every final state has every window's array at
    what the pipeline computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance: the program runs to the end, nothing faults, and the four argument arrays end
    as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.KI.Kit.lean ====
/- The launch side of the kernel's frame, stated once for any float instance: what every TensorCore buffer holds when
   the one pallas_call is entered (the host operations before it, folded over the launch memory), that no host
   operation writes an argument array, each window's block at a grid point, the three conditions the body branches on
   in closed form over the grid (the reduction step d = t mod 5 is zero / positive / the last), where the output
   window is idle, and the region invariant with the accumulator scratch as an owned buffer. -/
import proofs.«157746_j15977278341385_1_alg».proof.Proof.Gen.KernelIdeal.Launch
import proofs.«157746_j15977278341385_1_alg».proof.Proof.Gen.KernelIdeal.Skeleton
import proofs.«157746_j15977278341385_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the nine stretches of host operations (the cast of
    the activations, the four masked copies, the stack of the five slots). -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main up to the region: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.nary_writes, StableHlo.TRef.unary, StableHlo.TRef.ternary, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.nary_writes, StableHlo.TRef.unary, StableHlo.TRef.ternary, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.nary_writes, StableHlo.TRef.unary, StableHlo.TRef.ternary, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.nary_writes, StableHlo.TRef.unary, StableHlo.TRef.ternary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: unfetched, its
    block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: unfetched, its
    block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: unfetched, its
    block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim from a frame run: the two staged arguments (the embedding, the stacked deltas) are input windows'
    arrays, which the pipeline leaves as found; the activations and the adapter indices bypass the region; and no
    host operation wrote any of the four. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 rfl (by decide))).trans (V_main_arg0 m c),
     ((h c).1 1).trans (((dats 0 c).arrAt_in 1 rfl _).trans ((hA c 1).trans (V_main_arg1 m c))),
     ((h c).1 2).trans (((dats 0 c).arrAt_in 2 rfl _).trans ((hA c 2).trans (V_main_arg2 m c))),
     ((h c).2 main_arg3 (Pipeline.mem_restRefs_of main_arg3 rfl (by decide))).trans (V_main_arg3 m c)⟩) h

/-! ## The body's branch conditions -/

/-- The reduction step is the first (`d = 0`): the condition of the body's first two `scf.if`s. -/
abbrev condZ (i : grid0.Coords) : Prop := (Scalar.cmpi .ne (Scalar.extui (Scalar.cmpi .eq (BitVec.ofNat 32 (i 1).val) 0#32)) 0#32) = 1#1
theorem hcondZ : ∀ t : Fin cfg0.N, condZ (grid0.coords t) ↔ t.val % 5 = 0 :=
  (by decide +kernel : ∀ t : Fin grid0.N, condZ (grid0.coords t) ↔ t.val % 5 = 0)

/-- The reduction step is a later one (`d > 0`): the condition of the third `scf.if`. -/
abbrev condP (i : grid0.Coords) : Prop := (Scalar.cmpi .ne (Scalar.extui (Scalar.cmpi .sgt (BitVec.ofNat 32 (i 1).val) 0#32)) 0#32) = 1#1
theorem hcondP : ∀ t : Fin cfg0.N, condP (grid0.coords t) ↔ ¬ t.val % 5 = 0 :=
  (by decide +kernel : ∀ t : Fin grid0.N, condP (grid0.coords t) ↔ ¬ t.val % 5 = 0)

/-- The reduction step is the last (`d = 4`): the condition of the fourth `scf.if`. -/
abbrev condL (i : grid0.Coords) : Prop := k0_cond4 i = 1#1
theorem hcondL : ∀ t : Fin cfg0.N, condL (grid0.coords t) ↔ t.val % 5 = 4 :=
  (by decide +kernel : ∀ t : Fin grid0.N, condL (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last reduction step the output window is idle (the body stores nothing into it) and not written back. -/
theorem idleAt0_3 : ∀ t : Fin cfg0.N, ¬condL (grid0.coords t) → cfg0.idle 3 (grid0.coords t) = true := by decide +kernel
theorem noFlush0_3 : ∀ t : Fin cfg0.N, ¬condL (grid0.coords t) → (cfg0.win 3).flush t = false := by decide +kernel
/-- At the last reduction step it is live. -/
theorem liveAt0_3 : ∀ t : Fin cfg0.N, condL (grid0.coords t) → cfg0.idle 3 (grid0.coords t) = false := by decide +kernel

/-! ## The staging and scratch memrefs -/

abbrev VO0_3 : View sig .tc .vmem S512x640 .f32 := (Memref.whole cc0_stg3_0 : Memref sig .tc .vmem S512x640 .f32).view
abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x640 .f32 := win0_3.stage (cfg0.slots t 3)
abbrev hs0_3 (t : Fin cfg0.N) : (ms0_3 t).IsWhole := hstage0_3 ((cfg0.slots t 3).cast nbuf0_3)
/-- The accumulator scratch: a whole scoped buffer of the kernel's own, carried from one grid point to the next. -/
abbrev scM0_0 : Memref sig .tc .vmem S512x640 .f32 := Memref.whole cc0_scratch0
abbrev VS0_0 : View sig .tc .vmem S512x640 .f32 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.KI.RunA.lean ====
/- The kernel body at a first reduction step (d = 0): it zeroes the accumulator scratch, then stores into it the sum of what it now reads there and the product of the activations slot with the embedding tile; the weights tile and the output buffer are not touched. Stated on any whole staging memrefs, with the pieces the scratch ends with as the witness the run finds. -/
import proofs.«157746_j15977278341385_1_alg».proof.Proof.KI.Kit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A: the first two conditionals taken, the last two not. -/
noncomputable def kernelRunA (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : condZ i) (hp : ¬condP i) (hl : ¬condL i)
    (x0 : Vec F S1x512x2048 .bf16) (x1 : Vec F S640x2048 .f32) (x2 : Vec F S1x640x2048 .f32) :
    { LS0 : List (View.Piece (Elt F) S512x640 .f32) //
      ∀ (xi3 : Vec F S512x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hz | exact hp | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.KI.RunB.lean ====
/- The kernel body at a middle reduction step (d = 1, 2, 3): it stores into the accumulator scratch the sum of what the step before left there and the product of the activations slot with the weights tile; the embedding tile and the output buffer are not touched. -/
import proofs.«157746_j15977278341385_1_alg».proof.Proof.KI.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B: only the third conditional taken. -/
noncomputable def kernelRunB (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : ¬condL i)
    (x0 : Vec F S1x512x2048 .bf16) (x1 : Vec F S640x2048 .f32) (x2 : Vec F S1x640x2048 .f32) (xs0 : Vec F S512x640 .f32) :
    { LS0 : List (View.Piece (Elt F) S512x640 .f32) //
      ∀ (xi3 : Vec F S512x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hz | exact hp | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.KI.RunC.lean ====
/- The kernel body at the last reduction step (d = 4): as at a middle step, and then the accumulator scratch is copied into the output buffer. The output buffer may hold anything on entry; both it and the scratch end with the pieces the run finds. -/
import proofs.«157746_j15977278341385_1_alg».proof.Proof.KI.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C: the third and the fourth conditionals taken. -/
noncomputable def kernelRunC (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) :
    Σ' (L3 : List (View.Piece (Elt F) S512x640 .f32)), { LS0 : List (View.Piece (Elt F) S512x640 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hz | exact hp | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frame

end
-- ==== Proof.KI.Frame.lean ====
/- The kernel's frame certificate, stated once for any float instance. Over the 250 grid points (50 vocabulary
   tiles, each with five reduction steps d = t mod 5) the accumulator scratch after point t holds: at d = 0 what the
   first-step body leaves (the embedding product over a zeroed scratch), at d > 0 what the later-step body leaves over
   the contents after point t - 1; the output window's buffer is stored only at d = 4, with a copy of the scratch, and
   is idle before. With these as the pipeline's proof data, the scratch contents carried in the region invariant, the
   body obligation holds at every point case by case, and the library's tracked frame run gives the run of @main:
   every window's array at what the pipeline computes from the data, every other buffer as the region found it. -/
import proofs.«157746_j15977278341385_1_alg».proof.Proof.KI.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's one store into the accumulator scratch covers it. -/
theorem scover_A (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : condZ i) (hp : ¬condP i) (hl : ¬condL i)
    (x0 : Vec F S1x512x2048 .bf16) (x1 : Vec F S640x2048 .f32) (x2 : Vec F S1x640x2048 .f32) (y : S512x640.Idx) :
    ∃ pc ∈ (kernelRunA c i arg2 harg2 arg3 harg3 arg4 harg4 arg5 harg5 arg6 harg6 hz hp hl x0 x1 x2).1, y ∈ pc.1.set :=
  View.cover_of_tiledL (kernelRunA c i arg2 harg2 arg3 harg3 arg4 harg4 arg5 harg5 arg6 harg6 hz hp hl x0 x1 x2).1 S512x640.size (by sl_kernel_rfl) y

/-- What case A leaves in the accumulator scratch: its pieces read back. -/
def sout_A (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : condZ i) (hp : ¬condP i) (hl : ¬condL i)
    (x0 : Vec F S1x512x2048 .bf16) (x1 : Vec F S640x2048 .f32) (x2 : Vec F S1x640x2048 .f32) : Vec F S512x640 .f32 :=
  VS0_0.read (Elt F) (VS0_0.writes (Elt F) VS0_0.junk (kernelRunA c i arg2 harg2 arg3 harg3 arg4 harg4 arg5 harg5 arg6 harg6 hz hp hl x0 x1 x2).1)

/-- Case B's one store into the accumulator scratch covers it. -/
theorem scover_B (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : ¬condL i)
    (x0 : Vec F S1x512x2048 .bf16) (x1 : Vec F S640x2048 .f32) (x2 : Vec F S1x640x2048 .f32) (xs0 : Vec F S512x640 .f32) (y : S512x640.Idx) :
    ∃ pc ∈ (kernelRunB c i arg2 harg2 arg3 harg3 arg4 harg4 arg5 harg5 arg6 harg6 hz hp hl x0 x1 x2 xs0).1, y ∈ pc.1.set :=
  View.cover_of_tiledL (kernelRunB c i arg2 harg2 arg3 harg3 arg4 harg4 arg5 harg5 arg6 harg6 hz hp hl x0 x1 x2 xs0).1 S512x640.size (by sl_kernel_rfl) y

/-- What case B leaves in the accumulator scratch: its pieces read back. -/
def sout_B (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : ¬condL i)
    (x0 : Vec F S1x512x2048 .bf16) (x1 : Vec F S640x2048 .f32) (x2 : Vec F S1x640x2048 .f32) (xs0 : Vec F S512x640 .f32) : Vec F S512x640 .f32 :=
  VS0_0.read (Elt F) (VS0_0.writes (Elt F) VS0_0.junk (kernelRunB c i arg2 harg2 arg3 harg3 arg4 harg4 arg5 harg5 arg6 harg6 hz hp hl x0 x1 x2 xs0).1)

/-- Case C's one store into the accumulator scratch covers it. -/
theorem scover_C (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) (y : S512x640.Idx) :
    ∃ pc ∈ (kernelRunC c i arg2 harg2 arg3 harg3 arg4 harg4 arg5 harg5 arg6 harg6 hz hp hl x0 x1 x2 xs0).2.1, y ∈ pc.1.set :=
  View.cover_of_tiledL (kernelRunC c i arg2 harg2 arg3 harg3 arg4 harg4 arg5 harg5 arg6 harg6 hz hp hl x0 x1 x2 xs0).2.1 S512x640.size (by sl_kernel_rfl) y

/-- What case C leaves in the accumulator scratch: its pieces read back. -/
def sout_C (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) : Vec F S512x640 .f32 :=
  VS0_0.read (Elt F) (VS0_0.writes (Elt F) VS0_0.junk (kernelRunC c i arg2 harg2 arg3 harg3 arg4 harg4 arg5 harg5 arg6 harg6 hz hp hl x0 x1 x2 xs0).2.1)

/-- Case C's one store into the output buffer covers it. -/
theorem cover_C (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) (y : S512x640.Idx) :
    ∃ pc ∈ (kernelRunC c i arg2 harg2 arg3 harg3 arg4 harg4 arg5 harg5 arg6 harg6 hz hp hl x0 x1 x2 xs0).1, y ∈ pc.1.set :=
  View.cover_of_tiledL (kernelRunC c i arg2 harg2 arg3 harg3 arg4 harg4 arg5 harg5 arg6 harg6 hz hp hl x0 x1 x2 xs0).1 S512x640.size (by sl_kernel_rfl) y

/-- What case C leaves in the output window's staging buffer: its pieces read back. -/
def out_C (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) : Vec F S512x640 .f32 :=
  VO0_3.read (Elt F) (VO0_3.writes (Elt F) VO0_3.junk (kernelRunC c i arg2 harg2 arg3 harg3 arg4 harg4 arg5 harg5 arg6 harg6 hz hp hl x0 x1 x2 xs0).1)

/-! ## What the output buffer and the scratch hold after each point -/

/-- The accumulation: after the body at position `n`, the output window's staging buffer (first component; it is stored
    only at a last reduction step, and what is written here for the other points is a placeholder nothing consults: the
    window is idle there) and the accumulator scratch (second component). -/
def outsAt (c : Dev nD) : (n : ℕ) → n < cfg0.N → Vec F S512x640 .f32 × Vec F S512x640 .f32
  | 0, hn => (sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcondZ ⟨0, hn⟩).mpr (Nat.zero_mod _)) (fun h => (hcondP ⟨0, hn⟩).mp h (Nat.zero_mod _)) (fun h => (fun h' => by (try dsimp only at h'); omega) ((hcondL ⟨0, hn⟩).mp h)) (iblk m c 0 ⟨0, hn⟩) (iblk m c 1 ⟨0, hn⟩) (iblk m c 2 ⟨0, hn⟩), sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcondZ ⟨0, hn⟩).mpr (Nat.zero_mod _)) (fun h => (hcondP ⟨0, hn⟩).mp h (Nat.zero_mod _)) (fun h => (fun h' => by (try dsimp only at h'); omega) ((hcondL ⟨0, hn⟩).mp h)) (iblk m c 0 ⟨0, hn⟩) (iblk m c 1 ⟨0, hn⟩) (iblk m c 2 ⟨0, hn⟩))
  | n + 1, hn =>
    if h0 : (n + 1) % 5 = 0 then
      (sout_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcondZ ⟨n + 1, hn⟩).mpr h0) (fun h => (hcondP ⟨n + 1, hn⟩).mp h h0) (fun h => (fun h' => by (try dsimp only at h'); omega) ((hcondL ⟨n + 1, hn⟩).mp h)) (iblk m c 0 ⟨n + 1, hn⟩) (iblk m c 1 ⟨n + 1, hn⟩) (iblk m c 2 ⟨n + 1, hn⟩), sout_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcondZ ⟨n + 1, hn⟩).mpr h0) (fun h => (hcondP ⟨n + 1, hn⟩).mp h h0) (fun h => (fun h' => by (try dsimp only at h'); omega) ((hcondL ⟨n + 1, hn⟩).mp h)) (iblk m c 0 ⟨n + 1, hn⟩) (iblk m c 1 ⟨n + 1, hn⟩) (iblk m c 2 ⟨n + 1, hn⟩))
    else
      if h4 : (n + 1) % 5 = 4 then
        (out_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcondZ ⟨n + 1, hn⟩).mp h)) ((hcondP ⟨n + 1, hn⟩).mpr h0) ((hcondL ⟨n + 1, hn⟩).mpr h4) (iblk m c 0 ⟨n + 1, hn⟩) (iblk m c 1 ⟨n + 1, hn⟩) (iblk m c 2 ⟨n + 1, hn⟩) (outsAt c n (Nat.lt_of_succ_lt hn)).2, sout_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcondZ ⟨n + 1, hn⟩).mp h)) ((hcondP ⟨n + 1, hn⟩).mpr h0) ((hcondL ⟨n + 1, hn⟩).mpr h4) (iblk m c 0 ⟨n + 1, hn⟩) (iblk m c 1 ⟨n + 1, hn⟩) (iblk m c 2 ⟨n + 1, hn⟩) (outsAt c n (Nat.lt_of_succ_lt hn)).2)
      else
        (sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcondZ ⟨n + 1, hn⟩).mp h)) ((hcondP ⟨n + 1, hn⟩).mpr h0) (fun h => h4 ((hcondL ⟨n + 1, hn⟩).mp h)) (iblk m c 0 ⟨n + 1, hn⟩) (iblk m c 1 ⟨n + 1, hn⟩) (iblk m c 2 ⟨n + 1, hn⟩) (outsAt c n (Nat.lt_of_succ_lt hn)).2, sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcondZ ⟨n + 1, hn⟩).mp h)) ((hcondP ⟨n + 1, hn⟩).mpr h0) (fun h => h4 ((hcondL ⟨n + 1, hn⟩).mp h)) (iblk m c 0 ⟨n + 1, hn⟩) (iblk m c 1 ⟨n + 1, hn⟩) (iblk m c 2 ⟨n + 1, hn⟩) (outsAt c n (Nat.lt_of_succ_lt hn)).2)

/-- At a first reduction step. -/
theorem outsAt_A (c : Dev nD) (t : Fin cfg0.N) (h0 : t.val % 5 = 0) :
    outsAt m c t.val t.isLt = (sout_A c (grid0.coords t) (ms0_0 t) (hs0_0 t) (ms0_1 t) (hs0_1 t) (ms0_2 t) (hs0_2 t) (ms0_3 t) (hs0_3 t) scM0_0 (Memref.isWhole_whole _) ((hcondZ t).mpr h0) (fun h => (hcondP t).mp h h0) (fun h => (fun h' => by (try dsimp only at h'); omega) ((hcondL t).mp h)) (iblk m c 0 t) (iblk m c 1 t) (iblk m c 2 t), sout_A c (grid0.coords t) (ms0_0 t) (hs0_0 t) (ms0_1 t) (hs0_1 t) (ms0_2 t) (hs0_2 t) (ms0_3 t) (hs0_3 t) scM0_0 (Memref.isWhole_whole _) ((hcondZ t).mpr h0) (fun h => (hcondP t).mp h h0) (fun h => (fun h' => by (try dsimp only at h'); omega) ((hcondL t).mp h)) (iblk m c 0 t) (iblk m c 1 t) (iblk m c 2 t)) := by
  obtain ⟨n, hn⟩ := t
  cases n with
  | zero => exact rfl
  | succ n => exact (dif_pos h0).trans rfl

/-- At a middle reduction step: over what the point before left in the scratch. -/
theorem outsAt_B (c : Dev nD) (t : Fin cfg0.N) (h0 : ¬t.val % 5 = 0) (h4 : ¬t.val % 5 = 4) :
    outsAt m c t.val t.isLt = (sout_B c (grid0.coords t) (ms0_0 t) (hs0_0 t) (ms0_1 t) (hs0_1 t) (ms0_2 t) (hs0_2 t) (ms0_3 t) (hs0_3 t) scM0_0 (Memref.isWhole_whole _) (fun h => h0 ((hcondZ t).mp h)) ((hcondP t).mpr h0) (fun h => h4 ((hcondL t).mp h)) (iblk m c 0 t) (iblk m c 1 t) (iblk m c 2 t) (outsAt m c (t.val - 1) (Nat.lt_of_le_of_lt (Nat.sub_le _ _) t.isLt)).2, sout_B c (grid0.coords t) (ms0_0 t) (hs0_0 t) (ms0_1 t) (hs0_1 t) (ms0_2 t) (hs0_2 t) (ms0_3 t) (hs0_3 t) scM0_0 (Memref.isWhole_whole _) (fun h => h0 ((hcondZ t).mp h)) ((hcondP t).mpr h0) (fun h => h4 ((hcondL t).mp h)) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h4).trans rfl)

/-- At a last reduction step: over what the point before left in the scratch. -/
theorem outsAt_C (c : Dev nD) (t : Fin cfg0.N) (h0 : ¬t.val % 5 = 0) (h4 : t.val % 5 = 4) :
    outsAt m c t.val t.isLt = (out_C c (grid0.coords t) (ms0_0 t) (hs0_0 t) (ms0_1 t) (hs0_1 t) (ms0_2 t) (hs0_2 t) (ms0_3 t) (hs0_3 t) scM0_0 (Memref.isWhole_whole _) (fun h => h0 ((hcondZ t).mp h)) ((hcondP t).mpr h0) ((hcondL t).mpr h4) (iblk m c 0 t) (iblk m c 1 t) (iblk m c 2 t) (outsAt m c (t.val - 1) (Nat.lt_of_le_of_lt (Nat.sub_le _ _) t.isLt)).2, sout_C c (grid0.coords t) (ms0_0 t) (hs0_0 t) (ms0_1 t) (hs0_1 t) (ms0_2 t) (hs0_2 t) (ms0_3 t) (hs0_3 t) scM0_0 (Memref.isWhole_whole _) (fun h => h0 ((hcondZ t).mp h)) ((hcondP t).mpr h0) ((hcondL t).mpr h4) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h4).trans rfl)

/-- The region invariant before position `n`: before the first point the class's (the scratch at anything); afterwards
    the scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2)) ∗ (∃ r, prngReg c r)) := by
  cases n with
  | zero => exact absurd rfl hz
  | succ n => rfl

/-! ## The pipeline's proof data -/

/-- The arrays as the region finds them; after the body at point `t` each input's buffer at its block and the output's
    at `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The three inputs are live at every point: the body leaves each buffer at its block. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the reduction step says which case the point is in;
    the invariant hands the body the scratch at what the point before left (at anything before the first point) and
    takes it back at this point's contents; the output buffer is handed back untouched before the last step and
    stored whole at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 250 := lt_of_lt_of_eq t.isLt (show cfg0.N = 250 from N_0)
  by_cases h0 : t.val % 5 = 0
  · have hl : ¬condL (grid0.coords t) := fun h => by have := (hcondL t).mp h; omega
    rw [Dat.leavesExact_idle (dats m 0 c) 3 t (idleAt0_3 t hl) (noFlush0_3 t hl)]
    rw [outsAt_A m c t h0]
    unfold sout_A; (try dsimp only)
    by_cases hzero : t.val = 0
    · rw [PhiS_castSucc m c t, PhiS_zero m c _ _ hzero, PhiA0_eq]
      iintro ⟨⟨HS0, Hg⟩, Ho, ⟨%d0, H0⟩, ⟨%d1, H1⟩, ⟨%d2, H2⟩, ⟨%d3, H3⟩⟩
      iapply ((kernelRunA c (grid0.coords t) _ _ _ _ _ _ _ _ _ _ ((hcondZ t).mpr h0) (fun h => (hcondP t).mp h h0) (fun h => (fun h' => by (try dsimp only at h'); omega) ((hcondL t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
    · rw [PhiS_castSucc m c t, PhiS_pos m c _ _ hzero]
      iintro ⟨⟨HS0, Hg⟩, Ho, ⟨%d0, H0⟩, ⟨%d1, H1⟩, ⟨%d2, H2⟩, ⟨%d3, H3⟩⟩
      iapply ((kernelRunA c (grid0.coords t) _ _ _ _ _ _ _ _ _ _ ((hcondZ t).mpr h0) (fun h => (hcondP t).mp h h0) (fun h => (fun h' => by (try dsimp only at h'); omega) ((hcondL t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
  · have hzero : t.val ≠ 0 := fun e => h0 (by rw [e])
    by_cases h4 : t.val % 5 = 4
    · rw [show (dats m 0 c).leavesExact 3 t = owns (c : Thread nD τ) (ms0_3 t) fullShare ((dats m 0 c).after 3 t) from by
        unfold Dat.leavesExact; rw [liveAt0_3 t ((hcondL t).mpr h4)], after0_3]
      rw [outsAt_C m c t h0 h4]
      unfold out_C sout_C; (try dsimp only)
      rw [PhiS_castSucc m c t, PhiS_pos m c _ _ hzero]
      iintro ⟨⟨HS0, Hg⟩, Ho, ⟨%d0, H0⟩, ⟨%d1, H1⟩, ⟨%d2, H2⟩, ⟨%d3, H3⟩⟩
      iapply ((kernelRunC c (grid0.coords t) _ _ _ _ _ _ _ _ _ _ (fun h => h0 ((hcondZ t).mp h)) ((hcondP t).mpr h0) ((hcondL t).mpr h4) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover_C c _ _ _ _ _ _ _ _ _ _ _ _ _ _ _ _ _ _ )
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _ _ )
    · have hl : ¬condL (grid0.coords t) := fun h => h4 ((hcondL t).mp h)
      rw [Dat.leavesExact_idle (dats m 0 c) 3 t (idleAt0_3 t hl) (noFlush0_3 t hl)]
      rw [outsAt_B m c t h0 h4]
      unfold sout_B; (try dsimp only)
      rw [PhiS_castSucc m c t, PhiS_pos m c _ _ hzero]
      iintro ⟨⟨HS0, Hg⟩, Ho, ⟨%d0, H0⟩, ⟨%d1, H1⟩, ⟨%d2, H2⟩, ⟨%d3, H3⟩⟩
      iapply ((kernelRunB c (grid0.coords t) _ _ _ _ _ _ _ _ _ _ (fun h => h0 ((hcondZ t).mp h)) ((hcondP t).mpr h0) (fun h => h4 ((hcondL t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover_B c _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 250 := N_0; omega)

/-! ## The run and the frame -/

set_option backward.isDefEq.respectTransparency.types false in
/-- Every weakly fair execution of @main terminates, nothing faulting, and every final state has every window's array at
    what the pipeline computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance: the program runs to the end, nothing faults, and the four argument arrays end
    as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.KI.Pieces.lean ====
/- What each case of the body leaves, as the body's own arithmetic of the blocks it was handed. At a first reduction step
   the accumulator scratch ends at the zero block plus the product of the activations slot with the embedding tile; at a
   later step at what the step before left plus the product with the weights tile; and at the last step the output
   buffer ends at that same sum (the scratch read back after its store). Each is read off the stores the run found: a
   buffer stored whole reads back as its last store, and a whole-buffer load of an unwritten buffer reads its contents. -/
import proofs.«157746_j15977278341385_1_alg».proof.Proof.KI.Frame
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A first step: the scratch is zeroed, read back, and the embedding product added. -/
theorem soutA_eq (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : condZ i) (hp : ¬condP i) (hl : ¬condL i)
    (x0 : Vec F S1x512x2048 .bf16) (x1 : Vec F S640x2048 .f32) (x2 : Vec F S1x640x2048 .f32) :
    sout_A c i arg2 harg2 arg3 harg3 arg4 harg4 arg5 harg5 arg6 harg6 hz hp hl x0 x1 x2 = k0_pay3 x0 x1 (k0_pay1 (F := F)) := by
  unfold sout_A
  rw [View.read_writes_eq_canon _ _ _ (scover_A c i arg2 harg2 arg3 harg3 arg4 harg4 arg5 harg5 arg6 harg6 hz hp hl x0 x1 x2)]
  unfold kernelRunA
  dsimp only
  try sl_unfold_words
  rw [View.canon_cons_unit_zero (S := S512x640) hz2, View.readCov_unit_zero (S := S512x640) _ hz2]
  simp only [View.readAt_eq_ld, harg2.read_unread, harg3.read_unread, View.ld_unit_zero (S := S1x512x2048) hz3,
    View.ld_unit_zero (S := S640x2048) hz2]

/-- A middle step: the weights product added onto what the scratch held. -/
theorem soutB_eq (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : ¬condL i)
    (x0 : Vec F S1x512x2048 .bf16) (x1 : Vec F S640x2048 .f32) (x2 : Vec F S1x640x2048 .f32) (xs0 : Vec F S512x640 .f32) :
    sout_B c i arg2 harg2 arg3 harg3 arg4 harg4 arg5 harg5 arg6 harg6 hz hp hl x0 x1 x2 xs0 = k0_pay4 x0 x2 xs0 := by
  unfold sout_B
  rw [View.read_writes_eq_canon _ _ _ (scover_B c i arg2 harg2 arg3 harg3 arg4 harg4 arg5 harg5 arg6 harg6 hz hp hl x0 x1 x2 xs0)]
  unfold kernelRunB
  dsimp only
  try sl_unfold_words
  rw [View.canon_unit_zero hz2]
  simp only [View.readAt_eq_ld, harg2.read_unread, harg4.read_unread, harg6.read_unread, View.ld_unit_zero (S := S1x512x2048) hz3,
    View.ld_unit_zero (S := S1x640x2048) hz3, View.ld_unit_zero (S := S512x640) hz2]

/-- The last step, the scratch: as at a middle step. -/
theorem soutC_eq (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) :
    sout_C c i arg2 harg2 arg3 harg3 arg4 harg4 arg5 harg5 arg6 harg6 hz hp hl x0 x1 x2 xs0 = k0_pay4 x0 x2 xs0 := by
  unfold sout_C
  rw [View.read_writes_eq_canon _ _ _ (scover_C c i arg2 harg2 arg3 harg3 arg4 harg4 arg5 harg5 arg6 harg6 hz hp hl x0 x1 x2 xs0)]
  unfold kernelRunC
  dsimp only
  try sl_unfold_words
  rw [View.canon_unit_zero hz2]
  simp only [View.readAt_eq_ld, harg2.read_unread, harg4.read_unread, harg6.read_unread, View.ld_unit_zero (S := S1x512x2048) hz3,
    View.ld_unit_zero (S := S1x640x2048) hz3, View.ld_unit_zero (S := S512x640) hz2]

/-- The last step, the output buffer: the scratch read back after its store, so the same sum. -/
theorem outC_eq (c : Dev nD) (i : grid0.Coords) (arg2 : Memref sig .tc .vmem S1x512x2048 .bf16) (harg2 : arg2.IsWhole) (arg3 : Memref sig .tc .vmem S640x2048 .f32) (harg3 : arg3.IsWhole) (arg4 : Memref sig .tc .vmem S1x640x2048 .f32) (harg4 : arg4.IsWhole) (arg5 : Memref sig .tc .vmem S512x640 .f32) (harg5 : arg5.IsWhole) (arg6 : Memref sig .tc .vmem S512x640 .f32) (harg6 : arg6.IsWhole) (hz : ¬condZ i) (hp : condP i) (hl : condL i)
    (x0 : Vec F S1x512x2048 .bf16) (x1 : Vec F S640x2048 .f32) (x2 : Vec F S1x640x2048 .f32) (xs0 : Vec F S512x640 .f32) :
    out_C c i arg2 harg2 arg3 harg3 arg4 harg4 arg5 harg5 arg6 harg6 hz hp hl x0 x1 x2 xs0 = k0_pay4 x0 x2 xs0 := by
  unfold out_C
  rw [View.read_writes_eq_canon _ _ _ (cover_C c i arg2 harg2 arg3 harg3 arg4 harg4 arg5 harg5 arg6 harg6 hz hp hl x0 x1 x2 xs0)]
  unfold kernelRunC
  dsimp only
  try sl_unfold_words
  rw [View.canon_unit_zero hz2, View.readCov_unit_zero (S := S512x640) _ hz2]
  simp only [View.readAt_eq_ld, harg2.read_unread, harg4.read_unread, harg6.read_unread, View.ld_unit_zero (S := S1x512x2048) hz3,
    View.ld_unit_zero (S := S1x640x2048) hz3, View.ld_unit_zero (S := S512x640) hz2]

end Cert.KernelIdeal.Val

end
-- ==== Proof.KI.PayIdx.lean ====
/- The body's arithmetic at an entry, on the extended reals. The accumulator's reset is the zero block. The update at a first step, at entry (p, u), is what the scratch held there plus the sum over k of the activations slot's (p, k) times the embedding tile's (u, k); at a later step the same with the weights tile's (u, k): the tile product contracts the second axis of both operands, into the zero accumulator, and the casts to the narrow format and the casts that drop a leading unit axis change no entry. -/
import proofs.«157746_j15977278341385_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

open scoped BigOperators

/-! ## The tile product's operand indices -/

theorem lhs_k_0 (i : S512x640.Idx) (q : dot_S512x2048_S640x2048_S512x640_1_1_0_0_n_n.contr.Idx) :
    (dot_S512x2048_S640x2048_S512x640_1_1_0_0_n_n.lhsIdx i q 0).val = (i 0).val := by
  unfold DotDims.lhsIdx
  rw [dif_neg (show ¬(0 : Fin S512x2048.rank) ∈ dot_S512x2048_S640x2048_S512x640_1_1_0_0_n_n.lhsBatch by decide), dif_pos (show (0 : Fin S512x2048.rank) ∈ dot_S512x2048_S640x2048_S512x640_1_1_0_0_n_n.lhsNonContracting by decide)]
  rfl
theorem lhs_k_1 (i : S512x640.Idx) (q : dot_S512x2048_S640x2048_S512x640_1_1_0_0_n_n.contr.Idx) :
    (dot_S512x2048_S640x2048_S512x640_1_1_0_0_n_n.lhsIdx i q 1).val = (q ⟨0, by decide⟩).val :=
  dot_S512x2048_S640x2048_S512x640_1_1_0_0_n_n.lhsIdx_val_of_single rfl i q
theorem rhs_k_0 (i : S512x640.Idx) (q : dot_S512x2048_S640x2048_S512x640_1_1_0_0_n_n.contr.Idx) :
    (dot_S512x2048_S640x2048_S512x640_1_1_0_0_n_n.rhsIdx i q 0).val = (i 1).val := by
  unfold DotDims.rhsIdx
  rw [dif_neg (show ¬(0 : Fin S640x2048.rank) ∈ dot_S512x2048_S640x2048_S512x640_1_1_0_0_n_n.rhsBatch by decide), dif_pos (show (0 : Fin S640x2048.rank) ∈ dot_S512x2048_S640x2048_S512x640_1_1_0_0_n_n.rhsNonContracting by decide)]
  rfl
theorem rhs_k_1 (i : S512x640.Idx) (q : dot_S512x2048_S640x2048_S512x640_1_1_0_0_n_n.contr.Idx) :
    (dot_S512x2048_S640x2048_S512x640_1_1_0_0_n_n.rhsIdx i q 1).val = (q ⟨0, by decide⟩).val :=
  dot_S512x2048_S640x2048_S512x640_1_1_0_0_n_n.rhsIdx_val_of_single rfl i q

/-- The tile product into the zero accumulator at entry (p, u): rows p of the left and u of the right operand, multiplied
    entry by entry and summed. -/
theorem matmulNT_apply {φ₁ φ₂ : FTy} (l : FVec Ideal S512x2048 φ₁) (r : FVec Ideal S640x2048 φ₂) (p : Fin 512) (u : Fin 640) :
    matmul dot_S512x2048_S640x2048_S512x640_1_1_0_0_n_n none l r (constant S512x640 .f32 0x00000000#32) (ix2 p u)
      = ∑ k : Fin 2048, l (ix2 p k) * r (ix2 u k) := by
  show FloatOps.matmul dot_S512x2048_S640x2048_S512x640_1_1_0_0_n_n none l r (constant S512x640 .f32 0x00000000#32) (ix2 p u) = _
  rw [Ideal.matmul_constant_zero_apply, ← Equiv.sum_comp (ValueIdx.contrEquiv1 dot_S512x2048_S640x2048_S512x640_1_1_0_0_n_n 2048 rfl rfl).symm]
  refine Finset.sum_congr rfl fun k _ => ?_
  have hk := ValueIdx.contrEquiv1_symm_val dot_S512x2048_S640x2048_S512x640_1_1_0_0_n_n 2048 rfl rfl k
  have el : dot_S512x2048_S640x2048_S512x640_1_1_0_0_n_n.lhsIdx (ix2 p u) ((ValueIdx.contrEquiv1 dot_S512x2048_S640x2048_S512x640_1_1_0_0_n_n 2048 rfl rfl).symm k) = ix2 p k := funext fun a => Fin.ext (by
    match a with
    | ⟨0, _⟩ => exact lhs_k_0 _ _
    | ⟨1, _⟩ => exact (lhs_k_1 _ _).trans hk)
  have er : dot_S512x2048_S640x2048_S512x640_1_1_0_0_n_n.rhsIdx (ix2 p u) ((ValueIdx.contrEquiv1 dot_S512x2048_S640x2048_S512x640_1_1_0_0_n_n 2048 rfl rfl).symm k) = ix2 u k := funext fun a => Fin.ext (by
    match a with
    | ⟨0, _⟩ => exact rhs_k_0 _ _
    | ⟨1, _⟩ => exact (rhs_k_1 _ _).trans hk)
  rw [el, er]

/-! ## The casts that drop a leading unit axis -/

theorem dropUnit_h {α : Type} (x : S1x512x2048.Idx → α) (p : Fin 512) (k : Fin 2048) :
    shapeCast S512x2048 x shapeCasts_S1x512x2048_S512x2048 (ix2 p k) = x (ix3 (0 : Fin 1) p k) :=
  shapeCast_apply x shapeCasts_S1x512x2048_S512x2048 (ix2 p k) (ix3 (0 : Fin 1) p k) (by
    rw [Shape.rowMajor_val_three, Shape.rowMajor_val_two]
    show ((0 : ℕ) * 512 + p.val) * 2048 + k.val = p.val * 2048 + k.val
    omega)

theorem dropUnit_w {α : Type} (x : S1x640x2048.Idx → α) (u : Fin 640) (k : Fin 2048) :
    shapeCast S640x2048 x shapeCasts_S1x640x2048_S640x2048 (ix2 u k) = x (ix3 (0 : Fin 1) u k) :=
  shapeCast_apply x shapeCasts_S1x640x2048_S640x2048 (ix2 u k) (ix3 (0 : Fin 1) u k) (by
    rw [Shape.rowMajor_val_three, Shape.rowMajor_val_two]
    show ((0 : ℕ) * 640 + u.val) * 2048 + k.val = u.val * 2048 + k.val
    omega)

/-! ## The payloads at an entry -/

/-- The reset block is zero everywhere. -/
theorem pay1_apply (j : S512x640.Idx) : k0_pay1 (F := Ideal) j = 0 := by
  unfold k0_pay1
  rw [shapeCast_self]
  show Ideal.ofBits .f32 0x00000000#32 = 0
  exact Ideal.ofBits_zero_f32

/-- The first step's update at (p, u). -/
theorem pay3_apply (x0 : Vec Ideal S1x512x2048 .bf16) (x1 : Vec Ideal S640x2048 .f32) (acc : Vec Ideal S512x640 .f32)
    (p : Fin 512) (u : Fin 640) :
    k0_pay3 x0 x1 acc (ix2 p u) = acc (ix2 p u) + ∑ k : Fin 2048, x0 (ix3 (0 : Fin 1) p k) * x1 (ix2 u k) := by
  unfold k0_pay3 k0_pay2
  rw [shapeCast_self]
  show acc (ix2 p u) + matmul (F := Ideal) dot_S512x2048_S640x2048_S512x640_1_1_0_0_n_n none (shapeCast S512x2048 x0 shapeCasts_S1x512x2048_S512x2048)
      (truncf .bf16 x1 bitsLt_bf16_f32) (constant S512x640 .f32 0x00000000#32) (ix2 p u) = _
  rw [matmulNT_apply]
  refine congrArg (acc (ix2 p u) + ·) (Finset.sum_congr rfl fun k _ => ?_)
  rw [dropUnit_h]
  rfl

/-- A later step's update at (p, u). -/
theorem pay4_apply (x0 : Vec Ideal S1x512x2048 .bf16) (x2 : Vec Ideal S1x640x2048 .f32) (acc : Vec Ideal S512x640 .f32)
    (p : Fin 512) (u : Fin 640) :
    k0_pay4 x0 x2 acc (ix2 p u) = acc (ix2 p u) + ∑ k : Fin 2048, x0 (ix3 (0 : Fin 1) p k) * x2 (ix3 (0 : Fin 1) u k) := by
  unfold k0_pay4 k0_pay2
  rw [shapeCast_self]
  show acc (ix2 p u) + matmul (F := Ideal) dot_S512x2048_S640x2048_S512x640_1_1_0_0_n_n none (shapeCast S512x2048 x0 shapeCasts_S1x512x2048_S512x2048)
      (truncf .bf16 (shapeCast S640x2048 x2 shapeCasts_S1x640x2048_S640x2048) bitsLt_bf16_f32) (constant S512x640 .f32 0x00000000#32) (ix2 p u) = _
  rw [matmulNT_apply]
  refine congrArg (acc (ix2 p u) + ·) (Finset.sum_congr rfl fun k _ => ?_)
  rw [dropUnit_h]
  show x0 (ix3 (0 : Fin 1) p k) * shapeCast S640x2048 x2 shapeCasts_S1x640x2048_S640x2048 (ix2 u k) = _
  rw [dropUnit_w]

end Cert.KernelIdeal.Val

end
-- ==== Proof.KI.Blocks.lean ====
/- Each input window's block at a grid point, read at an entry, is an entry of the window's array as the region finds it: at point t (vocabulary tile t / 5, reduction step t mod 5) the activations window holds slot t mod 5 of the stacked activations, the embedding window rows 640 (t / 5) .. 640 (t / 5) + 639 of the embedding, and the weights window the same rows of delta (t mod 5) - 1 (of delta 0 at step 0, where the body does not read it). -/
import proofs.«157746_j15977278341385_1_alg».proof.Proof.KI.Kit
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The vocabulary row that column `u` of the tile of point `t` is. -/
def vrow (t : Fin cfg0.N) (u : Fin 640) : Fin 32000 :=
  ⟨(t.val / 5) * 640 + u.val, by
    have h1 : t.val < 250 := lt_of_lt_of_eq t.isLt (show cfg0.N = 250 from N_0)
    have h2 := u.isLt
    omega⟩

/-- The reduction step of point `t`, as a slot of the stacked activations. -/
def slot (t : Fin cfg0.N) : Fin 5 := ⟨t.val % 5, Nat.mod_lt _ (by decide)⟩

/-- The delta the weights window of point `t` is on: step - 1, and delta 0 at step 0. -/
def wslot (t : Fin cfg0.N) : Fin 4 := ⟨t.val % 5 - 1, by have := Nat.mod_lt t.val (show 0 < 5 by decide); omega⟩

/-- Window 0's block index at point `t`: (step, 0, 0). -/
private theorem idx0 : ∀ t : Fin cfg0.N, win0_0.index t 0 = t.val % 5 ∧ win0_0.index t 1 = 0 ∧ win0_0.index t 2 = 0 :=
  (by decide +kernel : ∀ t : Fin grid0.N, win0_0.index t 0 = t.val % 5 ∧ win0_0.index t 1 = 0 ∧ win0_0.index t 2 = 0)

/-- Window 1's block index at point `t`: (tile, 0). -/
private theorem idx1 : ∀ t : Fin cfg0.N, win0_1.index t 0 = t.val / 5 ∧ win0_1.index t 1 = 0 :=
  (by decide +kernel : ∀ t : Fin grid0.N, win0_1.index t 0 = t.val / 5 ∧ win0_1.index t 1 = 0)

/-- Window 2's block index at point `t`: (max (step - 1) 0, tile, 0). -/
private theorem idx2 : ∀ t : Fin cfg0.N, win0_2.index t 0 = t.val % 5 - 1 ∧ win0_2.index t 1 = t.val / 5 ∧ win0_2.index t 2 = 0 :=
  (by decide +kernel : ∀ t : Fin grid0.N, win0_2.index t 0 = t.val % 5 - 1 ∧ win0_2.index t 1 = t.val / 5 ∧ win0_2.index t 2 = 0)

/-- The activations window's block at point `t` is slot `t mod 5` of the stacked activations. -/
theorem blk0_apply (c : Dev nD) (t : Fin cfg0.N) (r : Fin 512) (k : Fin 2048) :
    (iblk m c 0 t : Vec F S1x512x2048 .bf16) (ix3 (0 : Fin 1) r k)
      = (V m c main_v22 : S5x512x2048.Idx → Elt F .bf16) (ix3 (slot t) r k) := by
  unfold iblk
  rw [View.read_apply]
  show V m c main_v22 _ = V m c main_v22 _
  congr 1
  funext a
  apply Fin.ext
  -- a block's coordinate in the array is (block index) × (block extent) + the coordinate inside the block
  match a with
  | ⟨0, _⟩ => show win0_0.index t 0 * 1 + 1 * (0 : Nat) = t.val % 5; rw [(idx0 t).1]; omega
  | ⟨1, _⟩ => show win0_0.index t 1 * 512 + 1 * r.val = r.val; rw [(idx0 t).2.1]; omega
  | ⟨2, _⟩ => show win0_0.index t 2 * 2048 + 1 * k.val = k.val; rw [(idx0 t).2.2]; omega

/-- The embedding window's block at point `t` is rows `640 (t / 5) + u` of the embedding. -/
theorem blk1_apply (c : Dev nD) (t : Fin cfg0.N) (u : Fin 640) (k : Fin 2048) :
    (iblk m c 1 t : Vec F S640x2048 .f32) (ix2 u k)
      = (m ((c : Thread nD τ).loc main_arg1) : S32000x2048.Idx → Elt F .f32) (ix2 (vrow t u) k) := by
  rw [← V_main_arg1 m c]
  unfold iblk
  rw [View.read_apply]
  show V m c main_arg1 _ = V m c main_arg1 _
  congr 1
  funext a
  apply Fin.ext
  match a with
  | ⟨0, _⟩ => show win0_1.index t 0 * 640 + 1 * u.val = (t.val / 5) * 640 + u.val; rw [(idx1 t).1]; omega
  | ⟨1, _⟩ => show win0_1.index t 1 * 2048 + 1 * k.val = k.val; rw [(idx1 t).2]; omega

/-- The weights window's block at point `t` is the same rows of delta `wslot t`. -/
theorem blk2_apply (c : Dev nD) (t : Fin cfg0.N) (u : Fin 640) (k : Fin 2048) :
    (iblk m c 2 t : Vec F S1x640x2048 .f32) (ix3 (0 : Fin 1) u k)
      = (m ((c : Thread nD τ).loc main_arg2) : S4x32000x2048.Idx → Elt F .f32) (ix3 (wslot t) (vrow t u) k) := by
  rw [← V_main_arg2 m c]
  unfold iblk
  rw [View.read_apply]
  show V m c main_arg2 _ = V m c main_arg2 _
  congr 1
  funext a
  apply Fin.ext
  match a with
  | ⟨0, _⟩ => show win0_2.index t 0 * 1 + 1 * (0 : Nat) = t.val % 5 - 1; rw [(idx2 t).1]; omega
  | ⟨1, _⟩ => show win0_2.index t 1 * 640 + 1 * u.val = (t.val / 5) * 640 + u.val; rw [(idx2 t).2.1]; omega
  | ⟨2, _⟩ => show win0_2.index t 2 * 2048 + 1 * k.val = k.val; rw [(idx2 t).2.2]; omega

end Cert.KernelIdeal.Val

end
-- ==== Proof.Spec.lean ====
/- The function both programs compute, entry by entry, on the extended reals.

   For token t and vocabulary entry v the logit is the row-by-row product of the activations with the embedding,
     sum over k of h (t, k) * emb (v, k),
   plus, for each of the four adapters d in turn, the product of the activations MASKED to adapter d with that adapter's
   delta weights,
     sum over k of (h (t, k) if idx t = d, else 0) * w (d, v, k),
   the five terms added from the left in this order. A token whose adapter index is none of 0, 1, 2, 3 gets the dense
   term only. -/
import Idealize.ShloMosaic.Lib.ValueIdx
import Idealize.ShloMosaic.PureOps.Ideal.Laws

noncomputable section

namespace Cert.Spec

open Idealize.ShloMosaic Idealize.ShloMosaic.ValueIdx
open scoped BigOperators

/-- The activations masked to the adapter whose number is the word `dw`: entry (t, k) is kept where token t's adapter
    index is `dw`, and is zero elsewhere. -/
def sel (h : (⟨2, ![512, 2048]⟩ : Shape).Idx → EReal) (idx : (⟨1, ![512]⟩ : Shape).Idx → BitVec 32) (dw : BitVec 32)
    (t : Fin 512) (k : Fin 2048) : EReal :=
  Scalar.select (IntOp.cmpi .eq (idx (ix1 t)) dw) (h (ix2 t k)) 0

/-- The dense term: row t of the activations against row v of the embedding. -/
def dotE (h : (⟨2, ![512, 2048]⟩ : Shape).Idx → EReal) (emb : (⟨2, ![32000, 2048]⟩ : Shape).Idx → EReal)
    (t : Fin 512) (v : Fin 32000) : EReal :=
  ∑ k : Fin 2048, h (ix2 t k) * emb (ix2 v k)

/-- Adapter d's term: row t of the activations masked to adapter `dw` against row v of delta d. -/
def dotW (h : (⟨2, ![512, 2048]⟩ : Shape).Idx → EReal) (idx : (⟨1, ![512]⟩ : Shape).Idx → BitVec 32)
    (w : (⟨3, ![4, 32000, 2048]⟩ : Shape).Idx → EReal) (dw : BitVec 32) (d : Fin 4) (t : Fin 512) (v : Fin 32000) : EReal :=
  ∑ k : Fin 2048, sel h idx dw t k * w (ix3 d v k)

/-- The logit of token t at vocabulary entry v. -/
def logit (h : (⟨2, ![512, 2048]⟩ : Shape).Idx → EReal) (emb : (⟨2, ![32000, 2048]⟩ : Shape).Idx → EReal)
    (w : (⟨3, ![4, 32000, 2048]⟩ : Shape).Idx → EReal) (idx : (⟨1, ![512]⟩ : Shape).Idx → BitVec 32)
    (t : Fin 512) (v : Fin 32000) : EReal :=
  (((dotE h emb t v + dotW h idx w 0#32 0 t v) + dotW h idx w 1#32 1 t v) + dotW h idx w 2#32 2 t v) + dotW h idx w 3#32 3 t v

/-- The logit's terms added up to and including reduction step `d`: the dense term at step 0, then one adapter term per
    step; from step 4 on, the whole logit. -/
def part (h : (⟨2, ![512, 2048]⟩ : Shape).Idx → EReal) (emb : (⟨2, ![32000, 2048]⟩ : Shape).Idx → EReal)
    (w : (⟨3, ![4, 32000, 2048]⟩ : Shape).Idx → EReal) (idx : (⟨1, ![512]⟩ : Shape).Idx → BitVec 32)
    (d : ℕ) (t : Fin 512) (v : Fin 32000) : EReal :=
  match d with
  | 0 => dotE h emb t v
  | 1 => dotE h emb t v + dotW h idx w 0#32 0 t v
  | 2 => (dotE h emb t v + dotW h idx w 0#32 0 t v) + dotW h idx w 1#32 1 t v
  | 3 => ((dotE h emb t v + dotW h idx w 0#32 0 t v) + dotW h idx w 1#32 1 t v) + dotW h idx w 2#32 2 t v
  | _ + 4 => logit h emb w idx t v

/-- The whole logits array. -/
def G (h : (⟨2, ![512, 2048]⟩ : Shape).Idx → EReal) (emb : (⟨2, ![32000, 2048]⟩ : Shape).Idx → EReal)
    (w : (⟨3, ![4, 32000, 2048]⟩ : Shape).Idx → EReal) (idx : (⟨1, ![512]⟩ : Shape).Idx → BitVec 32) :
    (⟨2, ![512, 32000]⟩ : Shape).Idx → EReal :=
  fun j => logit h emb w idx (j 0) (j 1)

theorem G_apply (h : (⟨2, ![512, 2048]⟩ : Shape).Idx → EReal) (emb : (⟨2, ![32000, 2048]⟩ : Shape).Idx → EReal)
    (w : (⟨3, ![4, 32000, 2048]⟩ : Shape).Idx → EReal) (idx : (⟨1, ![512]⟩ : Shape).Idx → BitVec 32)
    (t : Fin 512) (v : Fin 32000) : G h emb w idx (ix2 t v) = logit h emb w idx t v := rfl

end Cert.Spec

end
-- ==== Proof.KI.HostIdx.lean ====
/- The stacked activations the kernel's host code builds before the call, read at an entry on the extended reals: slot 0 is the activations themselves (the cast to the narrow format is the identity there), and slot d + 1 is the activations masked to adapter d: entry (t, k) kept where token t's adapter index is d, zero elsewhere. -/
import proofs.«157746_j15977278341385_1_alg».proof.Proof.KI.Kit
import proofs.«157746_j15977278341385_1_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## A five-operand operation's result, operand by operand -/

section
open Idealize.ShloMosaic.StableHlo
variable {τ' : Topo} {sig' : RefSig} {E : EltTy → Type}

/-- A five-operand operation's result with each operand's contents at its own reference. -/
private theorem nary5_result {x a b c e y : Ref sig' .tc}
    (f : ((k : Fin 5) → ((![x, a, b, c, e] : Fin 5 → Ref sig' .tc) k).ty.Contents E) → y.ty.Contents E) (hxs hy)
    (F : Valuation τ' sig' E) :
    (nary (τ := τ') ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl
end

/-! ## The pure terms the host operations compose -/

/-- The activations masked to the adapter whose number is the word `dw`, as the host operations compose them: the
    comparison of the adapter indices with the splat of `dw`, broadcast along the rows, selects between the cast
    activations and the splat of the narrow format's zero. -/
private abbrev masked (a0 : S512x2048.Idx → EReal) (a3 : S512.Idx → BitVec 32) (dw : BitVec 32) : S512x2048.Idx → EReal :=
  select
    (broadcastInDim S512x2048 ![0, 1] bcast_S512x1_S512x2048_0_1
      (broadcastInDim S512x1 ![0] bcast_S512_S512x1_0
        (cmpi .eq a3 (broadcastInDim S512 ![] bcast_S_S512 (constantI S_ 32 dw)))))
    (truncf (F := Ideal) .bf16 a0 bitsLt_bf16_f32)
    (broadcastInDim S512x2048 ![] bcast_S_S512x2048 (constant (F := Ideal) S_ .bf16 0x0000#16))

/-- A [512, 2048] array as one slot of the stack: a leading axis of extent 1. -/
private abbrev slot (x : S512x2048.Idx → EReal) : S1x512x2048.Idx → EReal :=
  broadcastInDim S1x512x2048 ![1, 2] bcast_S512x2048_S1x512x2048_1_2 x

/-! ## The buffers before the last stretch -/

section
open Idealize.ShloMosaic.StableHlo

/-- Core `c`'s TensorCore buffers before the last stretch (the five slots' broadcasts and their concatenation). -/
private def W (c : Dev nD) : Valuation τ sig (Elt Ideal) :=
  after (List.flatten [hostOps0, hostOps0_1, hostOps0_2, hostOps0_3, hostOps0_4, hostOps0_5, hostOps0_6, hostOps0_7]) (fun b => m (c, b))

/-- The buffers at the call are the last stretch run from there. -/
private theorem V_eq_W (c : Dev nD) (b : Ref sig .tc) :
    V (F := Ideal) m c b = after hostOps0_8 (W m c) (Proc.devRef .tc b) := by
  have h : List.flatten [hostOps0 (F := Ideal), hostOps0_1, hostOps0_2, hostOps0_3, hostOps0_4, hostOps0_5, hostOps0_6, hostOps0_7, hostOps0_8]
      = List.flatten [hostOps0, hostOps0_1, hostOps0_2, hostOps0_3, hostOps0_4, hostOps0_5, hostOps0_6, hostOps0_7] ++ hostOps0_8 := by
    simp only [List.flatten_cons, List.flatten_nil, List.append_nil, List.append_assoc]
  unfold W
  rw [← after_append, ← h]

/-- The cast activations. -/
private theorem W_v0 (c : Dev nD) :
    (W m c (Proc.devRef .tc main_v0) : S512x2048.Idx → EReal)
      = truncf (F := Ideal) .bf16 (m ((c : Thread nD τ).loc main_arg0)) bitsLt_bf16_f32 := by
  unfold W
  simp only [hostOps0, hostOps0_1, hostOps0_2, hostOps0_3, hostOps0_4, hostOps0_5, hostOps0_6, hostOps0_7, List.flatten_cons, List.flatten_nil, List.append_nil, List.cons_append, List.nil_append]
  after_results_simp

/-- The activations masked to adapter 0. -/
private theorem W_v4 (c : Dev nD) :
    (W m c (Proc.devRef .tc main_v4) : S512x2048.Idx → EReal)
      = masked (m ((c : Thread nD τ).loc main_arg0)) (m ((c : Thread nD τ).loc main_arg3)) 0#32 := by
  unfold W
  simp only [hostOps0, hostOps0_1, hostOps0_2, hostOps0_3, hostOps0_4, hostOps0_5, hostOps0_6, hostOps0_7, List.flatten_cons, List.flatten_nil, List.append_nil, List.cons_append, List.nil_append]
  after_results_simp
  rfl

/-- The activations masked to adapter 1. -/
private theorem W_v8 (c : Dev nD) :
    (W m c (Proc.devRef .tc main_v8) : S512x2048.Idx → EReal)
      = masked (m ((c : Thread nD τ).loc main_arg0)) (m ((c : Thread nD τ).loc main_arg3)) 1#32 := by
  unfold W
  simp only [hostOps0, hostOps0_1, hostOps0_2, hostOps0_3, hostOps0_4, hostOps0_5, hostOps0_6, hostOps0_7, List.flatten_cons, List.flatten_nil, List.append_nil, List.cons_append, List.nil_append]
  after_results_simp
  rfl

/-- The activations masked to adapter 2. -/
private theorem W_v12 (c : Dev nD) :
    (W m c (Proc.devRef .tc main_v12) : S512x2048.Idx → EReal)
      = masked (m ((c : Thread nD τ).loc main_arg0)) (m ((c : Thread nD τ).loc main_arg3)) 2#32 := by
  unfold W
  simp only [hostOps0, hostOps0_1, hostOps0_2, hostOps0_3, hostOps0_4, hostOps0_5, hostOps0_6, hostOps0_7, List.flatten_cons, List.flatten_nil, List.append_nil, List.cons_append, List.nil_append]
  after_results_simp
  rfl

/-- The activations masked to adapter 3. -/
private theorem W_v16 (c : Dev nD) :
    (W m c (Proc.devRef .tc main_v16) : S512x2048.Idx → EReal)
      = masked (m ((c : Thread nD τ).loc main_arg0)) (m ((c : Thread nD τ).loc main_arg3)) 3#32 := by
  unfold W
  simp only [hostOps0, hostOps0_1, hostOps0_2, hostOps0_3, hostOps0_4, hostOps0_5, hostOps0_6, hostOps0_7, List.flatten_cons, List.flatten_nil, List.append_nil, List.cons_append, List.nil_append]
  after_results_simp
  rfl

/-- The stack at the call: the concatenation, along a new leading axis, of the cast activations and their four
    masked copies. -/
private theorem hall_eq (c : Dev nD) :
    (V (F := Ideal) m c main_v22 : S5x512x2048.Idx → EReal)
      = concatenate S5x512x2048 0
          [⟨S1x512x2048, slot (truncf (F := Ideal) .bf16 (m ((c : Thread nD τ).loc main_arg0)) bitsLt_bf16_f32)⟩,
           ⟨S1x512x2048, slot (masked (m ((c : Thread nD τ).loc main_arg0)) (m ((c : Thread nD τ).loc main_arg3)) 0#32)⟩,
           ⟨S1x512x2048, slot (masked (m ((c : Thread nD τ).loc main_arg0)) (m ((c : Thread nD τ).loc main_arg3)) 1#32)⟩,
           ⟨S1x512x2048, slot (masked (m ((c : Thread nD τ).loc main_arg0)) (m ((c : Thread nD τ).loc main_arg3)) 2#32)⟩,
           ⟨S1x512x2048, slot (masked (m ((c : Thread nD τ).loc main_arg0)) (m ((c : Thread nD τ).loc main_arg3)) 3#32)⟩]
          concatenates_S1x512x2048_S1x512x2048_S1x512x2048_S1x512x2048_S1x512x2048_S5x512x2048_d0 := by
  rw [V_eq_W]
  simp only [hostOps0_8, after_cons, after_nil]
  rw [nary5_result]
  repeat (first | rw [unary_result] | (rw [unary_result_ne]; rotate_left; decide))
  rw [W_v0, W_v4, W_v8, W_v12, W_v16]
  rfl
end

/-! ## The terms read at an entry -/

/-- The narrow format's zero word is the extended real `0`. -/
private theorem ofBits_zero_bf16 : Ideal.ofBits .bf16 0x0000#16 = 0 := by simp [Ideal.ofBits, Ideal.ieee]

/-- A slot read at (0, r, k) is the array at (r, k). -/
private theorem slot_apply (x : S512x2048.Idx → EReal) (r : Fin 512) (k : Fin 2048) :
    slot x (ix3 (0 : Fin 1) r k) = x (ix2 r k) :=
  broadcastInDim_apply _ _ x _ (ix2 r k) fun a => match a with
    | ⟨0, _⟩ => rfl
    | ⟨1, _⟩ => rfl

/-- The masked activations read at (r, k): kept where token r's adapter index is `dw`, zero elsewhere. The mask at
    (r, k) is the comparison at (r, 0) of the column, that is at token r; the splat of `dw` reads `dw` and the splat of
    the zero word reads `0`. -/
private theorem masked_apply (a0 : S512x2048.Idx → EReal) (a3 : S512.Idx → BitVec 32) (dw : BitVec 32) (r : Fin 512) (k : Fin 2048) :
    masked a0 a3 dw (ix2 r k) = Cert.Spec.sel a0 a3 dw r k := by
  unfold Cert.Spec.sel
  show Scalar.select _ (a0 (ix2 r k)) _ = _
  have hm : broadcastInDim S512x2048 ![0, 1] bcast_S512x1_S512x2048_0_1
        (broadcastInDim S512x1 ![0] bcast_S512_S512x1_0
          (cmpi .eq a3 (broadcastInDim S512 ![] bcast_S_S512 (constantI S_ 32 dw)))) (ix2 r k)
      = IntOp.cmpi .eq (a3 (ix1 r)) dw := by
    refine (broadcastInDim_apply _ _ _ _ (ix2 r (0 : Fin 1)) fun a => match a with
      | ⟨0, _⟩ => rfl
      | ⟨1, _⟩ => rfl).trans ?_
    refine (broadcastInDim_apply _ _ _ _ (ix1 r) fun a => match a with
      | ⟨0, _⟩ => rfl).trans ?_
    rfl
  have hz : broadcastInDim S512x2048 ![] bcast_S_S512x2048 (constant (F := Ideal) S_ .bf16 0x0000#16) (ix2 r k) = 0 :=
    (broadcastInDim_apply _ _ _ _ ix0 fun a => a.elim0).trans ofBits_zero_bf16
  rw [hm, hz]

/-- The five slots in order, as the concatenation takes them. -/
private abbrev stack (x0 x1 x2 x3 x4 : S512x2048.Idx → EReal) : List ((s : Shape) × (s.Idx → EReal)) :=
  [⟨S1x512x2048, slot x0⟩, ⟨S1x512x2048, slot x1⟩, ⟨S1x512x2048, slot x2⟩, ⟨S1x512x2048, slot x3⟩, ⟨S1x512x2048, slot x4⟩]

/-- The stack read at (d, r, k) is slot `d`'s array at (r, k): piece `d` of the concatenation, the `d` pieces before it
    of extent 1 each. -/
private theorem stack_apply (x0 x1 x2 x3 x4 : S512x2048.Idx → EReal) (d : Fin 5) (r : Fin 512) (k : Fin 2048) :
    concatenate S5x512x2048 0
        [⟨S1x512x2048, slot x0⟩, ⟨S1x512x2048, slot x1⟩, ⟨S1x512x2048, slot x2⟩, ⟨S1x512x2048, slot x3⟩, ⟨S1x512x2048, slot x4⟩]
        concatenates_S1x512x2048_S1x512x2048_S1x512x2048_S1x512x2048_S1x512x2048_S5x512x2048_d0 (ix3 d r k)
      = (![x0, x1, x2, x3, x4] d) (ix2 r k) := by
  have hi : ∀ b : Fin S1x512x2048.rank, b.cast (rfl : S1x512x2048.rank = S5x512x2048.rank) ≠ 0 →
      ((ix3 (0 : Fin 1) r k) b).val = ((ix3 d r k) (b.cast rfl)).val := fun b hb => match b with
    | ⟨0, _⟩ => absurd rfl hb
    | ⟨1, _⟩ => rfl
    | ⟨2, _⟩ => rfl
  match d with
  | ⟨0, _⟩ =>
    exact (concatenate_apply_piece (t := S5x512x2048) 0 (stack x0 x1 x2 x3 x4)
      concatenates_S1x512x2048_S1x512x2048_S1x512x2048_S1x512x2048_S1x512x2048_S5x512x2048_d0 (ix3 _ r k) 0 (by decide : (0 : Nat) < 5)
      S1x512x2048 (slot x0) rfl rfl 0 rfl (ix3 (0 : Fin 1) r k) hi rfl).trans (slot_apply x0 r k)
  | ⟨1, _⟩ =>
    exact (concatenate_apply_piece (t := S5x512x2048) 0 (stack x0 x1 x2 x3 x4)
      concatenates_S1x512x2048_S1x512x2048_S1x512x2048_S1x512x2048_S1x512x2048_S5x512x2048_d0 (ix3 _ r k) 1 (by decide : (1 : Nat) < 5)
      S1x512x2048 (slot x1) rfl rfl 1 rfl (ix3 (0 : Fin 1) r k) hi rfl).trans (slot_apply x1 r k)
  | ⟨2, _⟩ =>
    exact (concatenate_apply_piece (t := S5x512x2048) 0 (stack x0 x1 x2 x3 x4)
      concatenates_S1x512x2048_S1x512x2048_S1x512x2048_S1x512x2048_S1x512x2048_S5x512x2048_d0 (ix3 _ r k) 2 (by decide : (2 : Nat) < 5)
      S1x512x2048 (slot x2) rfl rfl 2 rfl (ix3 (0 : Fin 1) r k) hi rfl).trans (slot_apply x2 r k)
  | ⟨3, _⟩ =>
    exact (concatenate_apply_piece (t := S5x512x2048) 0 (stack x0 x1 x2 x3 x4)
      concatenates_S1x512x2048_S1x512x2048_S1x512x2048_S1x512x2048_S1x512x2048_S5x512x2048_d0 (ix3 _ r k) 3 (by decide : (3 : Nat) < 5)
      S1x512x2048 (slot x3) rfl rfl 3 rfl (ix3 (0 : Fin 1) r k) hi rfl).trans (slot_apply x3 r k)
  | ⟨4, _⟩ =>
    exact (concatenate_apply_piece (t := S5x512x2048) 0 (stack x0 x1 x2 x3 x4)
      concatenates_S1x512x2048_S1x512x2048_S1x512x2048_S1x512x2048_S1x512x2048_S5x512x2048_d0 (ix3 _ r k) 4 (by decide : (4 : Nat) < 5)
      S1x512x2048 (slot x4) rfl rfl 4 rfl (ix3 (0 : Fin 1) r k) hi rfl).trans (slot_apply x4 r k)

/-! ## The five slots -/

/-- Slot 0 of the stack: the activations. -/
theorem hall_0 (c : Dev nD) (r : Fin 512) (k : Fin 2048) :
    (V (F := Ideal) m c main_v22 : S5x512x2048.Idx → EReal) (ix3 (0 : Fin 5) r k)
      = (m ((c : Thread nD τ).loc main_arg0) : S512x2048.Idx → EReal) (ix2 r k) := by
  rw [hall_eq, stack_apply]
  rfl

/-- Slot 1: the activations masked to adapter 0. -/
theorem hall_1 (c : Dev nD) (r : Fin 512) (k : Fin 2048) :
    (V (F := Ideal) m c main_v22 : S5x512x2048.Idx → EReal) (ix3 (1 : Fin 5) r k)
      = Cert.Spec.sel (m ((c : Thread nD τ).loc main_arg0)) (m ((c : Thread nD τ).loc main_arg3)) 0#32 r k := by
  rw [hall_eq, stack_apply]
  exact masked_apply _ _ _ r k

/-- Slot 2: masked to adapter 1. -/
theorem hall_2 (c : Dev nD) (r : Fin 512) (k : Fin 2048) :
    (V (F := Ideal) m c main_v22 : S5x512x2048.Idx → EReal) (ix3 (2 : Fin 5) r k)
      = Cert.Spec.sel (m ((c : Thread nD τ).loc main_arg0)) (m ((c : Thread nD τ).loc main_arg3)) 1#32 r k := by
  rw [hall_eq, stack_apply]
  exact masked_apply _ _ _ r k

/-- Slot 3: masked to adapter 2. -/
theorem hall_3 (c : Dev nD) (r : Fin 512) (k : Fin 2048) :
    (V (F := Ideal) m c main_v22 : S5x512x2048.Idx → EReal) (ix3 (3 : Fin 5) r k)
      = Cert.Spec.sel (m ((c : Thread nD τ).loc main_arg0)) (m ((c : Thread nD τ).loc main_arg3)) 2#32 r k := by
  rw [hall_eq, stack_apply]
  exact masked_apply _ _ _ r k

/-- Slot 4: masked to adapter 3. -/
theorem hall_4 (c : Dev nD) (r : Fin 512) (k : Fin 2048) :
    (V (F := Ideal) m c main_v22 : S5x512x2048.Idx → EReal) (ix3 (4 : Fin 5) r k)
      = Cert.Spec.sel (m ((c : Thread nD τ).loc main_arg0)) (m ((c : Thread nD τ).loc main_arg3)) 3#32 r k := by
  rw [hall_eq, stack_apply]
  exact masked_apply _ _ _ r k

end Cert.KernelIdeal.Val

end
-- ==== Proof.KI.Value.lean ====
/- The kernel's result on the extended reals. Within vocabulary tile v the accumulator scratch after reduction step d holds, at entry (p, u), the logit's terms up to step d for token p and vocabulary row 640 v + u: the dense term after step 0 (the reset contributes zero), and one more adapter term after each later step, since the activations window is then on the slot masked to that adapter and the weights window on that adapter's rows. At the last step the output buffer receives the same sum, the whole logit; the output window's blocks are the 50 column tiles of the result, so the result array ends as the logits function of the arguments. -/
import proofs.«157746_j15977278341385_1_alg».proof.Proof.KI.Frame
import proofs.«157746_j15977278341385_1_alg».proof.Proof.KI.Pieces
import proofs.«157746_j15977278341385_1_alg».proof.Proof.KI.PayIdx
import proofs.«157746_j15977278341385_1_alg».proof.Proof.KI.Blocks
import proofs.«157746_j15977278341385_1_alg».proof.Proof.KI.HostIdx
import proofs.«157746_j15977278341385_1_alg».proof.Proof.Spec
import Idealize.ShloMosaic.Lib.Pipeline.Value

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

open scoped BigOperators

variable (m : (ℓ : Loc nD τ sig) → Buf (Elt Ideal) ℓ) (ρ : Dev nD → PrngReg)

/-! ## The arguments and the blocks, at their literal types -/

abbrev hA (c : Dev nD) : S512x2048.Idx → EReal := m ((c : Thread nD τ).loc main_arg0)
abbrev eA (c : Dev nD) : S32000x2048.Idx → EReal := m ((c : Thread nD τ).loc main_arg1)
abbrev wA (c : Dev nD) : S4x32000x2048.Idx → EReal := m ((c : Thread nD τ).loc main_arg2)
abbrev iA (c : Dev nD) : S512.Idx → BitVec 32 := m ((c : Thread nD τ).loc main_arg3)

abbrev hblk (c : Dev nD) (t : Fin cfg0.N) : Vec Ideal S1x512x2048 .bf16 := iblk m c 0 t
abbrev eblk (c : Dev nD) (t : Fin cfg0.N) : Vec Ideal S640x2048 .f32 := iblk m c 1 t
abbrev wblk (c : Dev nD) (t : Fin cfg0.N) : Vec Ideal S1x640x2048 .f32 := iblk m c 2 t

theorem hblk_apply (c : Dev nD) (t : Fin cfg0.N) (r : Fin 512) (k : Fin 2048) :
    hblk m c t (ix3 (0 : Fin 1) r k) = (V (F := Ideal) m c main_v22 : S5x512x2048.Idx → EReal) (ix3 (slot t) r k) :=
  blk0_apply m c t r k
theorem eblk_apply (c : Dev nD) (t : Fin cfg0.N) (u : Fin 640) (k : Fin 2048) :
    eblk m c t (ix2 u k) = eA m c (ix2 (vrow t u) k) :=
  blk1_apply m c t u k
theorem wblk_apply (c : Dev nD) (t : Fin cfg0.N) (u : Fin 640) (k : Fin 2048) :
    wblk m c t (ix3 (0 : Fin 1) u k) = wA m c (ix3 (wslot t) (vrow t u) k) :=
  blk2_apply m c t u k

/-! ## One point's update -/

/-- At a first step the scratch ends at the embedding update over the zero block. -/
theorem key_first (c : Dev nD) (t : Fin cfg0.N) (h0 : t.val % 5 = 0) :
    (outsAt (F := Ideal) m c t.val t.isLt).2 = k0_pay3 (hblk m c t) (eblk m c t) (k0_pay1 (F := Ideal)) := by
  rw [outsAt_A m c t h0]
  dsimp only
  exact soutA_eq (F := Ideal) c (grid0.coords t) (ms0_0 t) (hs0_0 t) (ms0_1 t) (hs0_1 t) (ms0_2 t) (hs0_2 t) (ms0_3 t) (hs0_3 t) scM0_0 (Memref.isWhole_whole _) _ _ _ (iblk m c 0 t) (iblk m c 1 t) (iblk m c 2 t)

/-- At a later step the scratch ends at the weights update over what the point before left. -/
theorem key_next (c : Dev nD) (t : Fin cfg0.N) (h0 : ¬t.val % 5 = 0) :
    (outsAt (F := Ideal) m c t.val t.isLt).2
      = k0_pay4 (hblk m c t) (wblk m c t) (outsAt (F := Ideal) m c (t.val - 1) (Nat.lt_of_le_of_lt (Nat.sub_le _ _) t.isLt)).2 := by
  by_cases h4 : t.val % 5 = 4
  · rw [outsAt_C m c t h0 h4]
    dsimp only
    exact soutC_eq (F := Ideal) c (grid0.coords t) (ms0_0 t) (hs0_0 t) (ms0_1 t) (hs0_1 t) (ms0_2 t) (hs0_2 t) (ms0_3 t) (hs0_3 t) scM0_0 (Memref.isWhole_whole _) _ _ _ (iblk m c 0 t) (iblk m c 1 t) (iblk m c 2 t) _
  · rw [outsAt_B m c t h0 h4]
    dsimp only
    exact soutB_eq (F := Ideal) c (grid0.coords t) (ms0_0 t) (hs0_0 t) (ms0_1 t) (hs0_1 t) (ms0_2 t) (hs0_2 t) (ms0_3 t) (hs0_3 t) scM0_0 (Memref.isWhole_whole _) _ _ _ (iblk m c 0 t) (iblk m c 1 t) (iblk m c 2 t) _

/-- At the last step the output buffer ends at the same contents as the scratch. -/
theorem key_out (c : Dev nD) (t : Fin cfg0.N) (h0 : ¬t.val % 5 = 0) (h4 : t.val % 5 = 4) :
    (outsAt (F := Ideal) m c t.val t.isLt).1 = (outsAt (F := Ideal) m c t.val t.isLt).2 := by
  rw [outsAt_C m c t h0 h4]
  dsimp only
  exact (outC_eq (F := Ideal) c (grid0.coords t) (ms0_0 t) (hs0_0 t) (ms0_1 t) (hs0_1 t) (ms0_2 t) (hs0_2 t) (ms0_3 t) (hs0_3 t) scM0_0 (Memref.isWhole_whole _) _ _ _ (iblk m c 0 t) (iblk m c 1 t) (iblk m c 2 t) _).trans
    (soutC_eq (F := Ideal) c (grid0.coords t) (ms0_0 t) (hs0_0 t) (ms0_1 t) (hs0_1 t) (ms0_2 t) (hs0_2 t) (ms0_3 t) (hs0_3 t) scM0_0 (Memref.isWhole_whole _) _ _ _ (iblk m c 0 t) (iblk m c 1 t) (iblk m c 2 t) _).symm

/-- At a later step, on slot `s` of the stack (the activations masked to the adapter whose number is `dw`) and on delta
    `dd`, the product the body adds at entry (p, u) is that adapter's term of the logit. -/
theorem step_sum (c : Dev nD) (t : Fin cfg0.N) (s : Fin 5) (dd : Fin 4) (dw : BitVec 32) (hs : slot t = s) (hw : wslot t = dd)
    (hh : ∀ (r : Fin 512) (k : Fin 2048),
      (V (F := Ideal) m c main_v22 : S5x512x2048.Idx → EReal) (ix3 s r k) = Cert.Spec.sel (hA m c) (iA m c) dw r k)
    (p : Fin 512) (u : Fin 640) :
    (∑ k : Fin 2048, hblk m c t (ix3 (0 : Fin 1) p k) * wblk m c t (ix3 (0 : Fin 1) u k))
      = Cert.Spec.dotW (hA m c) (iA m c) (wA m c) dw dd p (vrow t u) := by
  unfold Cert.Spec.dotW
  refine Finset.sum_congr rfl fun k _ => ?_
  rw [hblk_apply, wblk_apply, hs, hw, hh]

/-- After a first step: the dense term. -/
theorem scr_first (c : Dev nD) (t : Fin cfg0.N) (h0 : t.val % 5 = 0) (p : Fin 512) (u : Fin 640) :
    (outsAt (F := Ideal) m c t.val t.isLt).2 (ix2 p u) = Cert.Spec.part (hA m c) (eA m c) (wA m c) (iA m c) 0 p (vrow t u) := by
  rw [key_first m c t h0, pay3_apply, pay1_apply, zero_add]
  show _ = Cert.Spec.dotE (hA m c) (eA m c) p (vrow t u)
  unfold Cert.Spec.dotE
  refine Finset.sum_congr rfl fun k _ => ?_
  rw [hblk_apply, eblk_apply, show slot t = (0 : Fin 5) from Fin.ext h0, hall_0]

/-- After a later step: one more adapter term. -/
theorem scr_next (c : Dev nD) (t : Fin cfg0.N) (d : ℕ) (s : Fin 5) (dd : Fin 4) (dw : BitVec 32)
    (hmod : t.val % 5 = d + 1) (hs : slot t = s) (hw : wslot t = dd)
    (hh : ∀ (r : Fin 512) (k : Fin 2048),
      (V (F := Ideal) m c main_v22 : S5x512x2048.Idx → EReal) (ix3 s r k) = Cert.Spec.sel (hA m c) (iA m c) dw r k)
    (hpart : ∀ (p : Fin 512) (v : Fin 32000), Cert.Spec.part (hA m c) (eA m c) (wA m c) (iA m c) (d + 1) p v
      = Cert.Spec.part (hA m c) (eA m c) (wA m c) (iA m c) d p v + Cert.Spec.dotW (hA m c) (iA m c) (wA m c) dw dd p v)
    (p : Fin 512) (u : Fin 640)
    (ih : (outsAt (F := Ideal) m c (t.val - 1) (Nat.lt_of_le_of_lt (Nat.sub_le _ _) t.isLt)).2 (ix2 p u)
      = Cert.Spec.part (hA m c) (eA m c) (wA m c) (iA m c) d p (vrow t u)) :
    (outsAt (F := Ideal) m c t.val t.isLt).2 (ix2 p u) = Cert.Spec.part (hA m c) (eA m c) (wA m c) (iA m c) (d + 1) p (vrow t u) := by
  have h0 : ¬t.val % 5 = 0 := by omega
  rw [key_next m c t h0, pay4_apply, ih, step_sum m c t s dd dw hs hw hh, hpart]

/-! ## The accumulation over the points -/

/-- After point `n` the scratch holds the logit's terms up to step `n mod 5`, at the tile's vocabulary rows. -/
theorem scr_inv (c : Dev nD) : ∀ (n : ℕ) (hn : n < cfg0.N) (p : Fin 512) (u : Fin 640),
    (outsAt (F := Ideal) m c n hn).2 (ix2 p u) = Cert.Spec.part (hA m c) (eA m c) (wA m c) (iA m c) (n % 5) p (vrow ⟨n, hn⟩ u)
  | 0, hn, p, u => scr_first m c ⟨0, hn⟩ (Nat.zero_mod 5) p u
  | n + 1, hn, p, u => by
    by_cases h0 : (n + 1) % 5 = 0
    · rw [h0]; exact scr_first m c ⟨n + 1, hn⟩ h0 p u
    · have ih := scr_inv c n (Nat.lt_of_succ_lt hn) p u
      have hv : vrow ⟨n, Nat.lt_of_succ_lt hn⟩ u = vrow ⟨n + 1, hn⟩ u := Fin.ext (by
        show (n / 5) * 640 + u.val = ((n + 1) / 5) * 640 + u.val
        have : n / 5 = (n + 1) / 5 := by omega
        rw [this])
      rw [hv] at ih
      have hcases : (n + 1) % 5 = 1 ∨ (n + 1) % 5 = 2 ∨ (n + 1) % 5 = 3 ∨ (n + 1) % 5 = 4 := by omega
      rcases hcases with h | h | h | h
      · have hn5 : n % 5 = 0 := by omega
        rw [hn5] at ih; rw [h]
        exact scr_next m c ⟨n + 1, hn⟩ 0 1 0 0#32 h (Fin.ext h) (Fin.ext (by show (n + 1) % 5 - 1 = 0; omega)) (hall_1 m c)
          (fun _ _ => rfl) p u ih
      · have hn5 : n % 5 = 1 := by omega
        rw [hn5] at ih; rw [h]
        exact scr_next m c ⟨n + 1, hn⟩ 1 2 1 1#32 h (Fin.ext h) (Fin.ext (by show (n + 1) % 5 - 1 = 1; omega)) (hall_2 m c)
          (fun _ _ => rfl) p u ih
      · have hn5 : n % 5 = 2 := by omega
        rw [hn5] at ih; rw [h]
        exact scr_next m c ⟨n + 1, hn⟩ 2 3 2 2#32 h (Fin.ext h) (Fin.ext (by show (n + 1) % 5 - 1 = 2; omega)) (hall_3 m c)
          (fun _ _ => rfl) p u ih
      · have hn5 : n % 5 = 3 := by omega
        rw [hn5] at ih; rw [h]
        exact scr_next m c ⟨n + 1, hn⟩ 3 4 3 3#32 h (Fin.ext h) (Fin.ext (by show (n + 1) % 5 - 1 = 3; omega)) (hall_4 m c)
          (fun _ _ => rfl) p u ih

/-- At a last step the output buffer holds the whole logit, at the tile's vocabulary rows. -/
theorem out_last (c : Dev nD) (t : Fin cfg0.N) (h4 : t.val % 5 = 4) (p : Fin 512) (u : Fin 640) :
    (outsAt (F := Ideal) m c t.val t.isLt).1 (ix2 p u) = Cert.Spec.logit (hA m c) (eA m c) (wA m c) (iA m c) p (vrow t u) := by
  have h0 : ¬t.val % 5 = 0 := by omega
  rw [key_out m c t h0 h4]
  have h := scr_inv m c t.val t.isLt p u
  rw [h4] at h
  exact h

/-! ## The output window's blocks and the result array -/

/-- The output window's block index at point `t`: (0, tile). -/
theorem idx3 : ∀ t : Fin cfg0.N, win0_3.index t 0 = 0 ∧ win0_3.index t 1 = t.val / 5 :=
  (by decide +kernel : ∀ t : Fin grid0.N, win0_3.index t 0 = 0 ∧ win0_3.index t 1 = t.val / 5)

/-- What a last step writes back is its tile of the logits array: columns 640 (t / 5) .. 640 (t / 5) + 639. -/
theorem flushed_eq (c : Dev nD) (t : Fin cfg0.N) (hf : (cfg0.win 3).flush t = true) :
    (dats (F := Ideal) m 0 c).flushed 3 t
      = ((cfg0.win 3).blk t).view.read (Elt Ideal) (Cert.Spec.G (hA m c) (eA m c) (wA m c) (iA m c)) := by
  have h4 : t.val % 5 = 4 := (flush0_3 t).mp hf
  show (cfg0.win 3).cut (grid0.coords t) ((dats m 0 c).after 3 t) = _
  rw [after0_3]
  funext y
  obtain ⟨p, u, rfl⟩ : ∃ (p : Fin 512) (u : Fin 640), y = (ix2 p u : S512x640.Idx) := ⟨y 0, y 1, eq_ix2 y⟩
  rw [View.read_apply]
  show (outsAt (F := Ideal) m c t.val t.isLt).1 (ix2 p u)
    = Cert.Spec.G (hA m c) (eA m c) (wA m c) (iA m c) (((cfg0.win 3).blk t).view.emb (ix2 p u))
  rw [out_last m c t h4 p u, ← Cert.Spec.G_apply]
  congr 1
  funext a
  apply Fin.ext
  -- a block's coordinate in the array is (block index) × (block extent) + the coordinate inside the block
  match a with
  | ⟨0, _⟩ => show p.val = win0_3.index t 0 * 512 + 1 * p.val; rw [(idx3 t).1]; omega
  | ⟨1, _⟩ => show (t.val / 5) * 640 + u.val = win0_3.index t 1 * 640 + 1 * u.val; rw [(idx3 t).2]; omega

/-- Every entry of the result lies in the tile some last step writes back: entry (r, j) in that of tile j / 640. -/
theorem cover3 (i : S512x32000.Idx) :
    ∃ t : Fin cfg0.N, (cfg0.win 3).flush t = true ∧ i ∈ ((cfg0.win 3).blk t).view.set := by
  have h0 : (i 0 : Nat) < 512 := (i 0).isLt
  have h1 : (i 1 : Nat) < 32000 := (i 1).isLt
  have hN : cfg0.N = 250 := N_0
  obtain ⟨t, ht⟩ : ∃ t : Fin cfg0.N, t.val = 5 * ((i 1 : Nat) / 640) + 4 :=
    ⟨⟨5 * ((i 1 : Nat) / 640) + 4, by rw [hN]; omega⟩, rfl⟩
  refine ⟨t, (flush0_3 t).mpr (by omega), ?_⟩
  show i ∈ ((View.whole main_v23).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [(idx3 t).1]; omega
  | ⟨1, _⟩ =>
    show win0_3.index t 1 * 640 ≤ (i 1 : Nat) ∧ (i 1 : Nat) < win0_3.index t 1 * 640 + 640
    rw [(idx3 t).2, ht]; omega

/-- So the result array ends holding the logits function of the arguments. -/
theorem final3 (c : Dev nD) : (dats (F := Ideal) m 0 c).arrAt 3 cfg0.N = Cert.Spec.G (hA m c) (eA m c) (wA m c) (iA m c) :=
  (dats m 0 c).arrAt_eq_of_cover 3 (Cert.Spec.G (hA m c) (eA m c) (wA m c) (iA m c)) (flushed_eq m c) cover3

/-- The kernel's run, read: the result array at the logits function of the launch contents of the four arguments, and
    the arguments unchanged. -/
theorem run : θ_run defs (onTc (τ := τ) (main (F := Ideal))) ⟨m, fun _ => 0, ρ⟩ fun r => ∀ c : Dev nD,
      r.2.mem ((c.tc : Thread nD τ).loc main_v23) = Cert.Spec.G (hA m c) (eA m c) (wA m c) (iA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 3).trans (final3 m c),
     ((h c).2 main_arg0 (Pipeline.mem_restRefs_of main_arg0 rfl (by decide))).trans (V_main_arg0 m c),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).2 main_arg3 (Pipeline.mem_restRefs_of main_arg3 rfl (by decide))).trans (V_main_arg3 m c)⟩)
    (run_main (F := Ideal) m ρ)

end Cert.KernelIdeal.Val

end
-- ==== Proof.RefG.lean ====
/- The reference's run computes the specification: its last stage, read one host operation at a time on the extended
   reals, is the logits function of the four argument arrays, entry by entry: the dense product plus the four masked
   products, added in the same order. -/
import proofs.«157746_j15977278341385_1_alg».proof.Proof.Gen.ReferenceIdeal.Run
import proofs.«157746_j15977278341385_1_alg».proof.Proof.Gen.ReferenceIdeal.Read
import proofs.«157746_j15977278341385_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefG

open Cert.ReferenceIdeal Cert.ReferenceIdeal.Gen
open Idealize.ShloMosaic Idealize.ShloMosaic.ValueIdx

/-- The dense product: entry (t, v) is row t of the activations against row v of the embedding (the transposed
    embedding read at (k, v) is the embedding at (v, k)). -/
private theorem dot1 (a0 : (⟨S512x2048, .f32⟩ : BufTy).Contents (Elt Ideal)) (a1 : (⟨S32000x2048, .f32⟩ : BufTy).Contents (Elt Ideal))
    (t : Fin 512) (v : Fin 32000) :
    Read.val_main_v1 (F := Ideal) a0 a1 (ix2 t v) = Cert.Spec.dotE a0 a1 t v := by
  rw [Read.val_main_v1_apply]
  unfold Cert.Spec.dotE
  refine Finset.sum_congr rfl fun k _ => ?_
  rw [Read.val_main_v0_apply]
  have e1 : Read.lidx_main_v1 (ix2 t v) k = ix2 t k :=
    funext fun a => Fin.ext (by match a with | ⟨0, _⟩ => rfl | ⟨1, _⟩ => rfl)
  have e2 : Read.idx_main_v0 (Read.ridx_main_v1 (ix2 t v) k) = ix2 v k :=
    funext fun a => Fin.ext (by match a with | ⟨0, _⟩ => rfl | ⟨1, _⟩ => rfl)
  rw [e1, e2]

/-- Adapter 0's product: the left factor at (t, k) is the activations masked by "token t's adapter index is 0" (the
    mask is the comparison at t, broadcast along k; the other branch is the zero word, the extended real 0); the right
    factor at (k, v) is delta 0 at (v, k): slice 0 of the deltas, with the unit axis dropped, transposed. -/
private theorem dot9 (a0 : (⟨S512x2048, .f32⟩ : BufTy).Contents (Elt Ideal)) (a2 : (⟨S4x32000x2048, .f32⟩ : BufTy).Contents (Elt Ideal))
    (a3 : (⟨S512, .i32⟩ : BufTy).Contents (Elt Ideal)) (t : Fin 512) (v : Fin 32000) :
    Read.val_main_v9 (F := Ideal) a0 a2 a3 (ix2 t v) = Cert.Spec.dotW a0 a3 a2 0#32 0 t v := by
  rw [Read.val_main_v9_apply]
  unfold Cert.Spec.dotW
  refine Finset.sum_congr rfl fun k _ => ?_
  have hv : v.val < 32000 := v.isLt
  have hk : k.val < 2048 := k.isLt
  have e1 : Read.lidx_main_v9 (ix2 t v) k = ix2 t k :=
    funext fun a => Fin.ext (by match a with | ⟨0, _⟩ => rfl | ⟨1, _⟩ => rfl)
  have e3 : Read.idx_main_v4 (Read.idx_main_call0_v1 (ix2 t k)) = ix1 t :=
    funext fun a => Fin.ext (by match a with | ⟨0, _⟩ => rfl)
  have e2 : Read.idx_main_v6 (Read.idx_main_v7 (Read.idx_main_v8 (Read.ridx_main_v9 (ix2 t v) k))) = ix3 0 v k :=
    funext fun a => Fin.ext (by
      match a with
      | ⟨0, _⟩ => rfl
      | ⟨1, _⟩ => show (v.val * 2048 + k.val) / 2048 % 32000 = v.val; omega
      | ⟨2, _⟩ => show (v.val * 2048 + k.val) % 2048 = k.val; omega)
  rw [Read.val_main_v8_apply, Read.val_main_v7_apply, Read.val_main_v6_apply, e2, e1,
    Read.val_main_v5_apply, Read.val_main_call0_v1_apply, Read.val_main_v4_apply, Read.val_main_v3_apply, e3,
    Read.val_main_v2_apply, Read.val_main_c_apply,
    Read.val_main_call0_v2_apply, Read.val_main_call0_v0_apply, Read.val_main_cst_apply]
  show Scalar.select _ _ (Ideal.ofBits .f32 0x00000000#32) * _ = _
  rw [Ideal.ofBits_zero_f32]
  rfl

/-- Adapter 1's product: the left factor at (t, k) is the activations masked by "token t's adapter index is 1",
    with the extended real 0 elsewhere; the right factor at (k, v) is delta 1 at (v, k): slice 1 of the deltas, with
    the unit axis dropped, transposed. -/
private theorem dot18 (a0 : (⟨S512x2048, .f32⟩ : BufTy).Contents (Elt Ideal)) (a2 : (⟨S4x32000x2048, .f32⟩ : BufTy).Contents (Elt Ideal))
    (a3 : (⟨S512, .i32⟩ : BufTy).Contents (Elt Ideal)) (t : Fin 512) (v : Fin 32000) :
    Read.val_main_v18 (F := Ideal) a0 a2 a3 (ix2 t v) = Cert.Spec.dotW a0 a3 a2 1#32 1 t v := by
  rw [Read.val_main_v18_apply]
  unfold Cert.Spec.dotW
  refine Finset.sum_congr rfl fun k _ => ?_
  have hv : v.val < 32000 := v.isLt
  have hk : k.val < 2048 := k.isLt
  have e1 : Read.lidx_main_v18 (ix2 t v) k = ix2 t k :=
    funext fun a => Fin.ext (by match a with | ⟨0, _⟩ => rfl | ⟨1, _⟩ => rfl)
  have e3 : Read.idx_main_v13 (Read.idx_main_call1_v1 (ix2 t k)) = ix1 t :=
    funext fun a => Fin.ext (by match a with | ⟨0, _⟩ => rfl)
  have e2 : Read.idx_main_v15 (Read.idx_main_v16 (Read.idx_main_v17 (Read.ridx_main_v18 (ix2 t v) k))) = ix3 1 v k :=
    funext fun a => Fin.ext (by
      match a with
      | ⟨0, _⟩ => rfl
      | ⟨1, _⟩ => show (v.val * 2048 + k.val) / 2048 % 32000 = v.val; omega
      | ⟨2, _⟩ => show (v.val * 2048 + k.val) % 2048 = k.val; omega)
  rw [Read.val_main_v17_apply, Read.val_main_v16_apply, Read.val_main_v15_apply, e2, e1,
    Read.val_main_v14_apply, Read.val_main_call1_v1_apply, Read.val_main_v13_apply, Read.val_main_v12_apply, e3,
    Read.val_main_v11_apply, Read.val_main_c_0_apply,
    Read.val_main_call1_v2_apply, Read.val_main_call1_v0_apply, Read.val_main_cst_1_apply]
  show Scalar.select _ _ (Ideal.ofBits .f32 0x00000000#32) * _ = _
  rw [Ideal.ofBits_zero_f32]
  rfl

/-- Adapter 2's product: the left factor at (t, k) is the activations masked by "token t's adapter index is 2",
    with the extended real 0 elsewhere; the right factor at (k, v) is delta 2 at (v, k): slice 2 of the deltas, with
    the unit axis dropped, transposed. -/
private theorem dot27 (a0 : (⟨S512x2048, .f32⟩ : BufTy).Contents (Elt Ideal)) (a2 : (⟨S4x32000x2048, .f32⟩ : BufTy).Contents (Elt Ideal))
    (a3 : (⟨S512, .i32⟩ : BufTy).Contents (Elt Ideal)) (t : Fin 512) (v : Fin 32000) :
    Read.val_main_v27 (F := Ideal) a0 a2 a3 (ix2 t v) = Cert.Spec.dotW a0 a3 a2 2#32 2 t v := by
  rw [Read.val_main_v27_apply]
  unfold Cert.Spec.dotW
  refine Finset.sum_congr rfl fun k _ => ?_
  have hv : v.val < 32000 := v.isLt
  have hk : k.val < 2048 := k.isLt
  have e1 : Read.lidx_main_v27 (ix2 t v) k = ix2 t k :=
    funext fun a => Fin.ext (by match a with | ⟨0, _⟩ => rfl | ⟨1, _⟩ => rfl)
  have e3 : Read.idx_main_v22 (Read.idx_main_call2_v1 (ix2 t k)) = ix1 t :=
    funext fun a => Fin.ext (by match a with | ⟨0, _⟩ => rfl)
  have e2 : Read.idx_main_v24 (Read.idx_main_v25 (Read.idx_main_v26 (Read.ridx_main_v27 (ix2 t v) k))) = ix3 2 v k :=
    funext fun a => Fin.ext (by
      match a with
      | ⟨0, _⟩ => rfl
      | ⟨1, _⟩ => show (v.val * 2048 + k.val) / 2048 % 32000 = v.val; omega
      | ⟨2, _⟩ => show (v.val * 2048 + k.val) % 2048 = k.val; omega)
  rw [Read.val_main_v26_apply, Read.val_main_v25_apply, Read.val_main_v24_apply, e2, e1,
    Read.val_main_v23_apply, Read.val_main_call2_v1_apply, Read.val_main_v22_apply, Read.val_main_v21_apply, e3,
    Read.val_main_v20_apply, Read.val_main_c_2_apply,
    Read.val_main_call2_v2_apply, Read.val_main_call2_v0_apply, Read.val_main_cst_3_apply]
  show Scalar.select _ _ (Ideal.ofBits .f32 0x00000000#32) * _ = _
  rw [Ideal.ofBits_zero_f32]
  rfl

/-- Adapter 3's product: the left factor at (t, k) is the activations masked by "token t's adapter index is 3",
    with the extended real 0 elsewhere; the right factor at (k, v) is delta 3 at (v, k): slice 3 of the deltas, with
    the unit axis dropped, transposed. -/
private theorem dot36 (a0 : (⟨S512x2048, .f32⟩ : BufTy).Contents (Elt Ideal)) (a2 : (⟨S4x32000x2048, .f32⟩ : BufTy).Contents (Elt Ideal))
    (a3 : (⟨S512, .i32⟩ : BufTy).Contents (Elt Ideal)) (t : Fin 512) (v : Fin 32000) :
    Read.val_main_v36 (F := Ideal) a0 a2 a3 (ix2 t v) = Cert.Spec.dotW a0 a3 a2 3#32 3 t v := by
  rw [Read.val_main_v36_apply]
  unfold Cert.Spec.dotW
  refine Finset.sum_congr rfl fun k _ => ?_
  have hv : v.val < 32000 := v.isLt
  have hk : k.val < 2048 := k.isLt
  have e1 : Read.lidx_main_v36 (ix2 t v) k = ix2 t k :=
    funext fun a => Fin.ext (by match a with | ⟨0, _⟩ => rfl | ⟨1, _⟩ => rfl)
  have e3 : Read.idx_main_v31 (Read.idx_main_call3_v1 (ix2 t k)) = ix1 t :=
    funext fun a => Fin.ext (by match a with | ⟨0, _⟩ => rfl)
  have e2 : Read.idx_main_v33 (Read.idx_main_v34 (Read.idx_main_v35 (Read.ridx_main_v36 (ix2 t v) k))) = ix3 3 v k :=
    funext fun a => Fin.ext (by
      match a with
      | ⟨0, _⟩ => rfl
      | ⟨1, _⟩ => show (v.val * 2048 + k.val) / 2048 % 32000 = v.val; omega
      | ⟨2, _⟩ => show (v.val * 2048 + k.val) % 2048 = k.val; omega)
  rw [Read.val_main_v35_apply, Read.val_main_v34_apply, Read.val_main_v33_apply, e2, e1,
    Read.val_main_v32_apply, Read.val_main_call3_v1_apply, Read.val_main_v31_apply, Read.val_main_v30_apply, e3,
    Read.val_main_v29_apply, Read.val_main_c_4_apply,
    Read.val_main_call3_v2_apply, Read.val_main_call3_v0_apply, Read.val_main_cst_5_apply]
  show Scalar.select _ _ (Ideal.ofBits .f32 0x00000000#32) * _ = _
  rw [Ideal.ofBits_zero_f32]
  rfl

/-- The reference's result, entry by entry, is the specification. -/
theorem ref_eq (a0 : (⟨S512x2048, .f32⟩ : BufTy).Contents (Elt Ideal)) (a1 : (⟨S32000x2048, .f32⟩ : BufTy).Contents (Elt Ideal))
    (a2 : (⟨S4x32000x2048, .f32⟩ : BufTy).Contents (Elt Ideal)) (a3 : (⟨S512, .i32⟩ : BufTy).Contents (Elt Ideal)) :
    Cert.ReferenceIdeal.Read.val_main_v37 (F := Ideal) a0 a1 a2 a3 = Cert.Spec.G a0 a1 a2 a3 := by
  funext j
  obtain ⟨t, v, rfl⟩ : ∃ (t : Fin 512) (v : Fin 32000), j = ix2 t v := ⟨j 0, j 1, eq_ix2 j⟩
  rw [Cert.Spec.G_apply]
  unfold Cert.Spec.logit
  rw [Read.val_main_v37_apply, Read.val_main_v28_apply, Read.val_main_v19_apply, Read.val_main_v10_apply,
    dot1, dot9, dot18, dot27, dot36]
  rfl

end Cert.ReferenceIdeal.RefG

end
-- ==== Proof.lean ====
/- The proof of `Cert.Claim`: a kernel that computes logits = h·embᵀ + Σ_d where(idx = d, h, 0)·W_dᵀ tile by tile against the
   same formula written with five whole matrix products.

   The kernel builds, on the host, a stack of five copies of the activations (the activations themselves, then the
   activations masked to each of the four adapters), and runs one call over 50 vocabulary tiles × 5 reduction steps: step 0
   zeroes an accumulator and adds the activations' product with the tile's rows of the embedding, step d > 0 adds slot d's
   product with the tile's rows of delta d - 1, and the last step copies the accumulator to the output tile.

   * The frames of the two kernel programs (word-level and idealized) are one argument stated for any float instance
     (Proof/KI/Kit, RunA-C, Frame; Proof/K/ is the same text for the word-level program): the accumulator's contents are
     carried from grid point to grid point in the region invariant, the output window is idle before the last step, and the
     host operations before the call write no argument.
   * The reference's frame is its run with the result dropped.
   * The ideal pass rewrote nothing, so `preserves` is trivial.
   * On the extended reals both programs end with the result array at one function of the four arguments
     (Proof/Spec.lean): the kernel by induction over a tile's five steps (Proof/KI/Value.lean: after step d the
     accumulator holds the logit's first d + 1 terms; 0 + x = x is the only law used, so finiteness of the inputs is not
     needed), the reference by reading its five products and four sums entry by entry (Proof/RefG.lean). -/
import proofs.«157746_j15977278341385_1_alg».proof.Defs
import proofs.«157746_j15977278341385_1_alg».proof.Proof.K.Frame
import proofs.«157746_j15977278341385_1_alg».proof.Proof.KI.Frame
import proofs.«157746_j15977278341385_1_alg».proof.Proof.KI.Value
import proofs.«157746_j15977278341385_1_alg».proof.Proof.RefG
import proofs.«157746_j15977278341385_1_alg».proof.Proof.Gen.Kernel
import proofs.«157746_j15977278341385_1_alg».proof.Proof.Gen.KernelIdeal
import proofs.«157746_j15977278341385_1_alg».proof.Proof.Gen.ReferenceIdeal
import proofs.«157746_j15977278341385_1_alg».proof.Proof.Gen.ReferenceIdeal.Run
import proofs.«157746_j15977278341385_1_alg».proof.Proof.Gen.ReferenceIdeal.Read
import proofs.«157746_j15977278341385_1_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result array at the logits function of the
    kernel's arguments: the kernel by its run read tile by tile, the reference by its run read operation by operation. -/
theorem algebraic : Cert.algebraic_KernelIdeal_ReferenceIdeal := by
  intro m ρ m' ρ' _ hagree
  refine ⟨fun c => Cert.Spec.G (Cert.KernelIdeal.Val.hA m c) (Cert.KernelIdeal.Val.eA m c) (Cert.KernelIdeal.Val.wA m c)
    (Cert.KernelIdeal.Val.iA m c), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v37_eq _ _ _ _).trans (Cert.ReferenceIdeal.RefG.ref_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
